-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S10000x16 : Shape := ⟨2, ![10000, 16]⟩
abbrev S1x16 : Shape := ⟨2, ![1, 16]⟩
abbrev S100000x64 : Shape := ⟨2, ![100000, 64]⟩
abbrev S4000x16 : Shape := ⟨2, ![4000, 16]⟩
abbrev S4000x64 : Shape := ⟨2, ![4000, 64]⟩
abbrev S1x64 : Shape := ⟨2, ![1, 64]⟩
abbrev S4000 : Shape := ⟨1, ![4000]⟩
abbrev S4000x1 : Shape := ⟨2, ![4000, 1]⟩

abbrev nBuf : Space → Nat
  | .hbm => 81
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S100000x16, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x16, .f32⟩
  | .hbm, ⟨73, _⟩ => ⟨S3300000x1, .f32⟩
  | .hbm, ⟨74, _⟩ => ⟨S3300000x16, .f32⟩
  | .hbm, ⟨75, _⟩ => ⟨S3300000x16, .f32⟩
  | .hbm, ⟨76, _⟩ => ⟨S_, .f32⟩
  | .hbm, ⟨77, _⟩ => ⟨S100000x16, .f32⟩
  | .hbm, ⟨78, _⟩ => ⟨S3300000x1, .i32⟩
  | .hbm, ⟨79, _⟩ => ⟨S100000x16, .f32⟩
  | .hbm, ⟨80, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | .local _ .vmem, ⟨10, _⟩ => ⟨S4000x16, .f32⟩
  | .local _ .vmem, ⟨11, _⟩ => ⟨S4000x16, .f32⟩
  | .local _ .vmem, ⟨12, _⟩ => ⟨S16x64, .f32⟩
  | .local _ .vmem, ⟨13, _⟩ => ⟨S64, .f32⟩
  | .local _ .vmem, ⟨14, _⟩ => ⟨S4000x64, .f32⟩
  | .local _ .vmem, ⟨15, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x64_S4000x64_1_0_0_1_n_n_wf : DotDims.WF S4000x16 S16x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x64, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x64, .f32⟩
  | 112 => ⟨S3300000x1, .f32⟩
  | 113 => ⟨S3300000x64, .f32⟩
  | 114 => ⟨S3300000x64, .f32⟩
  | 115 => ⟨S_, .f32⟩
  | 116 => ⟨S100000x64, .f32⟩
  | 117 => ⟨S3300000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S100000x64, .f32⟩
  | 8 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  A two-layer graph convolution with a log-softmax head, written index by index over the extended reals.

  Nodes are numbered below 100000 and the edge list (the given edges followed by one self-loop per node) has 3300000
  entries. An aggregation gathers a row per edge, scales it by that edge's coefficient and adds it into the row the edge
  points at. Which row an edge READS comes from a start index that is clamped into the node range; which row it WRITES
  comes from a start index that is not clamped, and an edge whose target falls outside the node range is dropped.
-/
import Idealize.ShloMosaic.PureOps.Ideal
import Idealize.ShloMosaic.PureOps.Ideal.Laws
import Idealize.ShloMosaic.Lib.ValueIdx

noncomputable section

open scoped BigOperators

namespace Gcn

open Idealize.ShloMosaic Idealize.ShloMosaic.ValueIdx

/-- A matrix of extended reals with r rows and c columns. -/
abbrev Mat (r c : Nat) : Type := (⟨2, ![r, c]⟩ : Shape).Idx → EReal
/-- A vector of n extended reals. -/
abbrev Vc (n : Nat) : Type := (⟨1, ![n]⟩ : Shape).Idx → EReal
/-- One 32-bit start index per edge, as a column. -/
abbrev EdgeCol : Type := IVec ⟨2, ![3300000, 1]⟩ 32

/-- The row edge e writes to: its start index read signed, not clamped. -/
def target (I : EdgeCol) (e : Fin 3300000) : Int := (I (ix2 e (0 : Fin 1))).toInt

/-- The row edge e reads: its start index read signed and clamped into the node range. -/
def source (I : EdgeCol) (e : Fin 3300000) : Fin 100000 :=
  ⟨min (I (ix2 e (0 : Fin 1))).toInt.toNat (100000 - 1), by omega⟩

/-- The edges that write to row n. -/
def incoming (I : EdgeCol) (n : Fin 100000) : Finset (Fin 3300000) :=
  Finset.univ.filter fun e => target I e = (n.val : Int)

/-- Aggregation: entry (n, c) is the sum over the edges into n of the source row's entry c times the edge's coefficient. -/
def agg {D : Nat} (Isrc Idst : EdgeCol) (coef : Vc 3300000) (h : Mat 100000 D) : Mat 100000 D :=
  fun i => ∑ e ∈ incoming Idst (i 0), h (ix2 (source Isrc e) (i 1)) * coef (ix1 e)

theorem agg_apply {D : Nat} (Isrc Idst : EdgeCol) (coef : Vc 3300000) (h : Mat 100000 D) (n : Fin 100000) (c : Fin D) :
    agg Isrc Idst coef h (ix2 n c) = ∑ e ∈ incoming Idst n, h (ix2 (source Isrc e) c) * coef (ix1 e) := rfl

/-- The matrix product, entry by entry. -/
def mm {r k c : Nat} (A : Mat r k) (B : Mat k c) : Mat r c :=
  fun i => ∑ q : Fin k, A (ix2 (i 0) q) * B (ix2 q (i 1))

theorem mm_apply {r k c : Nat} (A : Mat r k) (B : Mat k c) (p : Fin r) (j : Fin c) :
    mm A B (ix2 p j) = ∑ q : Fin k, A (ix2 p q) * B (ix2 q j) := rfl

/-- A vector added to every row. -/
def addRow {r c : Nat} (A : Mat r c) (b : Vc c) : Mat r c := fun i => A i + b (ix1 (i 1))

theorem addRow_apply {r c : Nat} (A : Mat r c) (b : Vc c) (p : Fin r) (j : Fin c) :
    addRow A b (ix2 p j) = A (ix2 p j) + b (ix1 j) := rfl

/-- The larger of each entry and zero. -/
def relu {r c : Nat} (A : Mat r c) : Mat r c := fun i => max (A i) 0

/-- The largest entry of row p, from minus infinity. -/
def rowMax {r c : Nat} (Z : Mat r c) (p : Fin r) : EReal :=
  (Finset.univ : Finset (Fin c)).fold max (⊥ : EReal) fun j => Z (ix2 p j)

/-- Log-softmax of each row: every entry less the row's maximum, less the logarithm of the sum of the exponentials
    of the row so shifted. -/
def logSoftmaxRows {r c : Nat} (Z : Mat r c) : Mat r c :=
  fun i => (Z i - rowMax Z (i 0)) - Ideal.log (∑ j : Fin c, Ideal.exp (Z (ix2 (i 0) j) - rowMax Z (i 0)))

theorem logSoftmaxRows_apply {r c : Nat} (Z : Mat r c) (p : Fin r) (j : Fin c) :
    logSoftmaxRows Z (ix2 p j)
      = (Z (ix2 p j) - rowMax Z p) - Ideal.log (∑ q : Fin c, Ideal.exp (Z (ix2 p q) - rowMax Z p)) := rfl

/-- The hidden layer: aggregate x·W1, add the bias, clip at zero. -/
def hidden (Isrc Idst : EdgeCol) (coef : Vc 3300000) (X : Mat 100000 512) (W1 : Mat 512 16) (b1 : Vc 16) : Mat 100000 16 :=
  relu (addRow (agg Isrc Idst coef (mm X W1)) b1)

/-- The output with the second layer's aggregation done BEFORE its projection. -/
def outAggFirst (Isrc Idst : EdgeCol) (coef : Vc 3300000) (H : Mat 100000 16) (W2 : Mat 16 64) (b2 : Vc 64) : Mat 100000 64 :=
  logSoftmaxRows (addRow (mm (agg Isrc Idst coef H) W2) b2)

/-- The output with the second layer's aggregation done AFTER its projection. -/
def outAggLast (Isrc Idst : EdgeCol) (coef : Vc 3300000) (H : Mat 100000 16) (W2 : Mat 16 64) (b2 : Vc 64) : Mat 100000 64 :=
  logSoftmaxRows (addRow (agg Isrc Idst coef (mm H W2)) b2)

end Gcn

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Region0.lean ====
/-
  The first pallas_call's result array: x · W1, computed twenty blocks of 5000 rows at a time.
  Block t of the result is rows 5000 t … 5000 t + 4999 of the whole product, because row p of a block's product reads
  row p of the block of x only, and W1 is read whole at every point.
-/
import proofs.«416209_j77369540870238_3_alg».proof.Proof.Gen.KernelIdeal.Frame
import proofs.«416209_j77369540870238_3_alg».proof.Proof.Spec
import proofs.«416209_j77369540870238_3_alg».proof.Proof.LibRowLayers
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## One block's product, entry by entry -/

/-- Row coordinate of the left operand's entry that output entry i and contraction index q meet: i's row. -/
private theorem lhs_blockDot_0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- Its column coordinate: the contraction index. -/
private theorem lhs_blockDot_1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
/-- Row coordinate of the right operand's entry: the contraction index. -/
private theorem rhs_blockDot_0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
/-- Its column coordinate: i's column. -/
private theorem rhs_blockDot_1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- What the body computes from a block of 5000 rows of x and the whole of W1, at (p, q): the sum over the 512
    contracted coordinates of the products. Narrowing the operands changes nothing over the extended reals, and the
    accumulator starts at zero. -/
private theorem blockProduct_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  refine (Ideal.matmul_constant_zero_apply dot_S5000x512_S512x16_S5000x16_1_0_0_1_n_n none _ _ (ix2 p q)).trans ?_
  rw [← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have el : dot_S5000x512_S512x16_S5000x16_1_0_0_1_n_n.lhsIdx (ix2 p q) ((contrEquiv1 dot_S5000x512_S512x16_S5000x16_1_0_0_1_n_n 512 rfl rfl).symm k) = ix2 p k := funext fun a => Fin.ext (by
    match a with
    | ⟨0, _⟩ => exact lhs_blockDot_0 _ _
    | ⟨1, _⟩ => exact (lhs_blockDot_1 _ _).trans hk)
  have er : dot_S5000x512_S512x16_S5000x16_1_0_0_1_n_n.rhsIdx (ix2 p q) ((contrEquiv1 dot_S5000x512_S512x16_S5000x16_1_0_0_1_n_n 512 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-! ## From the blocks to the array -/

/-- The body reads and writes whole blocks: offsets zero on both axes. -/
private theorem zeroOffsets : (![0, 0] : Fin 2 → Nat) = fun _ => 0 := funext fun a => by fin_cases a <;> rfl

/-- The block indices at grid point t: the block of x and the block of the result are both the t-th block of rows,
    all columns; W1 is one block. -/
private theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If row p of a block of the left operand is row r of the matrix X, and column q of the right operand is column q of W,
    then entry (p, q) of the block's product is entry (r, q) of X · W: that entry reads nothing else. -/
private theorem blockProduct_eq_mm (X : Gcn.Mat 100000 512) (W : Gcn.Mat 512 16)
    (x0 : Vec Ideal S5000x512 .f32) (x1 : Vec Ideal S512x16 .f32) (r : Fin 100000) (p : Fin 5000) (q : Fin 16)
    (h0 : ∀ k : Fin 512, x0 (ix2 p k) = X (ix2 r k))
    (h1 : ∀ k : Fin 512, x1 (ix2 k q) = W (ix2 k q)) :
    k0_pay1 (F := Ideal) x0 x1 (ix2 p q) = Gcn.mm X W (ix2 r q) := by
  rw [blockProduct_apply, Gcn.mm_apply]
  exact Finset.sum_congr rfl fun k _ => by rw [h0 k, h1 k]

/-- Row p of the block of x at point t is row 5000 t + p of x. -/
private theorem xBlock_apply (c : Dev nD) (t : Fin cfg0.N) (p : Fin 5000) (k : Fin 512) (r : Fin 100000)
    (hr : r.val = t.val * 5000 + p.val) :
    iblk0 (F := Ideal) V c 0 t (ix2 p k) = V c main_arg0 (ix2 r k) := by
  obtain ⟨e00, e01, -, -, -, -⟩ := blockIndex_facts t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The block of W1 at every point is W1 whole. -/
private theorem wBlock_apply (c : Dev nD) (t : Fin cfg0.N) (k : Fin 512) (q : Fin 16) :
    iblk0 (F := Ideal) V c 1 t (ix2 k q) = V c main_arg2 (ix2 k q) := by
  obtain ⟨-, -, e10, e11, -, -⟩ := blockIndex_facts t
  unfold iblk0
  rw [View.read_apply]
  show V c main_arg2 (((cfg0.win 1).blk t).view.emb (ix2 k q)) = V c main_arg2 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- What point t writes back is block t of the whole product x · W1. -/
private theorem flushed_eq (c : Dev nD) (t : Fin cfg0.N) :
    (dat0 (F := Ideal) V c).flushed 2 t
      = ((cfg0.win 2).blk t).view.read (Elt Ideal) (Gcn.mm (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x512) zeroOffsets, View.ld_unit_zero (S := S512x16) zeroOffsets]
  obtain ⟨-, -, -, -, e20, e21⟩ := blockIndex_facts t
  funext j
  have hj0 : (j 0).val < 5000 := (j 0).isLt
  have hj1 : (j 1).val < 16 := (j 1).isLt
  have ht : t.val < 20 := t.isLt
  rw [View.read_apply]
  have ej : (cfg0.win 2).xinj (grid0.coords t) j = ix2 (⟨(j 0).val, hj0⟩ : Fin 5000) (⟨(j 1).val, hj1⟩ : Fin 16) :=
    funext fun a => Fin.ext (by match a with | ⟨0, _⟩ => rfl | ⟨1, _⟩ => rfl)
  have ei : ((cfg0.win 2).blk t).view.emb j
      = ix2 (⟨t.val * 5000 + (j 0).val, by omega⟩ : Fin 100000) (⟨(j 1).val, hj1⟩ : Fin 16) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 16 + 1 * (j 1).val = (j 1).val; omega)
  show k0_pay1 (F := Ideal) (iblk0 V c 0 t) (iblk0 V c 1 t) ((cfg0.win 2).xinj (grid0.coords t) j)
    = Gcn.mm (V c main_arg0) (V c main_arg2) (((cfg0.win 2).blk t).view.emb j)
  rw [ej, ei]
  exact blockProduct_eq_mm (V c main_arg0) (V c main_arg2) (iblk0 V c 0 t) (iblk0 V c 1 t) _ _ _
    (fun k => xBlock_apply V c t _ k _ rfl) (fun k => wBlock_apply V c t k _)

/-- An index of the result array lies in point t's block exactly when each coordinate lies in the block's range on
    its axis. -/
private theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row r of the result lies in the block of point r / 5000, and every point writes its block back: the twenty blocks
    cover the array. -/
private theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, e20, e21⟩ := blockIndex_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the first pallas_call its output array holds the matrix product of the first operand's array by the second's. -/
theorem region0_final (c : Dev nD) :
    (dat0 (F := Ideal) V c).arrAt 2 cfg0.N = Gcn.mm (V c main_arg0) (V c main_arg2) :=
  (dat0 (F := Ideal) V c).arrAt_eq_of_cover 2 (Gcn.mm (V c main_arg0) (V c main_arg2))
    (fun t _ => flushed_eq V c t) covered

end Cert.KernelIdeal.RegionValue

end
-- ==== Proof.Region1.lean ====
/-
  The second pallas_call's result array: the bias vector added to every row, then the larger of each entry and zero,
  ten blocks of 10000 rows at a time. The operation is entry by entry, so block t of the result is that block of rows of
  the whole array's image.
-/
import proofs.«416209_j77369540870238_3_alg».proof.Proof.Gen.KernelIdeal.Frame
import proofs.«416209_j77369540870238_3_alg».proof.Proof.Spec
import proofs.«416209_j77369540870238_3_alg».proof.Proof.LibRowLayers
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's arithmetic at an index -/

/-- The body's arithmetic at row p, column q of a block: the larger of zero and the block's entry plus the bias's
    entry q. The bias is first cast to one row and that row repeated down the 10000 rows, so at (p, q) it reads entry
    q; the cast of the block to its own shape changes nothing; the splat's word is the real zero. -/
private theorem biasRelu_apply (b : Vec Ideal S16 .f32) (x : Vec Ideal S10000x16 .f32) (p : Fin 10000) (q : Fin 16) :
    k1_pay1 b x (ix2 p q) = max (x (ix2 p q) + b (ix1 q)) 0 := by
  unfold k1_pay1
  rw [maximumf_apply, addf_apply, broadcast_apply, shapeCast_self, RowLayers.biasRow_apply]
  exact congrArg (max (x (ix2 p q) + b (ix1 q))) Ideal.ofBits_zero_f32

/-- One entry of a block against one entry of the whole result: when the block's entry at j is the matrix's entry at
    i, the block's bias is the bias, and j and i are in the same column, the body's result at j is relu (A + b) at i. -/
private theorem biasRelu_point (A : Gcn.Mat 100000 16) (b : Gcn.Vc 16) (x : Vec Ideal S10000x16 .f32)
    (bb : Vec Ideal S16 .f32) (j : S10000x16.Idx) (i : S100000x16.Idx)
    (hx : x j = A i) (hb : ∀ q : Fin 16, bb (ix1 q) = b (ix1 q)) (hcol : (i 1).val = (j 1).val) :
    k1_pay1 bb x j = Gcn.relu (Gcn.addRow A b) i := by
  obtain ⟨p, q, rfl⟩ : ∃ (p : Fin 10000) (q : Fin 16), j = ix2 p q := ⟨j 0, j 1, eq_ix2 j⟩
  obtain ⟨r, s, rfl⟩ : ∃ (r : Fin 100000) (s : Fin 16), i = ix2 r s := ⟨i 0, i 1, eq_ix2 i⟩
  have hs : s = q := Fin.ext hcol
  subst hs
  rw [biasRelu_apply, hx, hb]
  rfl

/-! ## From the blocks to the array -/

private theorem biasRelu_off2 : (![0, 0] : Fin 2 → Nat) = fun _ => 0 := funext fun a => by fin_cases a <;> rfl
private theorem biasRelu_off1 : (![0] : Fin 1 → Nat) = fun _ => 0 := funext fun a => by fin_cases a <;> rfl

/-- The index maps over the ten points: the matrix operand's block and the result's block are the same block of rows,
    both all 16 columns wide, and the bias is read whole. -/
private theorem biasRelu_idx : ∀ t : Fin cfg1.N, win1_0.index t (0 : Fin 2) = win1_2.index t (0 : Fin 2)
    ∧ win1_0.index t (1 : Fin 2) = 0
    ∧ win1_2.index t (1 : Fin 2) = 0
    ∧ win1_1.index t (0 : Fin 1) = 0
    ∧ win1_2.index t (0 : Fin 2) ≤ 9 :=
  (by decide +kernel : ∀ t : Fin grid1.N, _)

/-- Every one of the ten blocks of rows is some point's. -/
private theorem biasRelu_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of relu (A + b) of the arrays as the region finds them: row p of the block is
    row (block index) × 10000 + p of the array, on both the operand's and the result's side. -/
private theorem biasRelu_flushed (c : Dev nD) (t : Fin cfg1.N) :
    (dat1 (F := Ideal) V c).flushed 2 t
      = ((cfg1.win 2).blk t).view.read (Elt Ideal) (Gcn.relu (Gcn.addRow (V c main_v43) (V c main_arg3))) := by
  show (cfg1.win 2).cut (grid1.coords t) ((dat1 V c).after 2 t) = _
  rw [after1_2]
  unfold out1_2
  rw [View.canon_unit_zero biasRelu_off2]
  simp only [View.ld_unit_zero (S := S10000x16) biasRelu_off2, View.ld_unit_zero (S := S16) biasRelu_off1]
  obtain ⟨e0, e1, e2, e3, e4⟩ := biasRelu_idx t
  refine funext fun (j : S10000x16.Idx) => ?_
  show k1_pay1 (iblk1 V c 1 t) (iblk1 V c 0 t) j
      = Gcn.relu (Gcn.addRow (V c main_v43) (V c main_arg3)) (((cfg1.win 2).blk t).view.emb j)
  refine biasRelu_point (V c main_v43) (V c main_arg3) (iblk1 V c 0 t) (iblk1 V c 1 t) j
    (((cfg1.win 2).blk t).view.emb j) ?_ ?_ ?_
  · -- the matrix operand's block at t is the same rows of its array as the result's block at t
    show V c main_v43 (((cfg1.win 0).blk t).view.emb j) = V c main_v43 (((cfg1.win 2).blk t).view.emb j)
    refine congrArg (V c main_v43) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  · -- the bias's one block is the whole bias
    intro q
    show V c main_arg3 (((cfg1.win 1).blk t).view.emb (ix1 q)) = V c main_arg3 (ix1 q)
    refine congrArg (V c main_arg3) ?_
    funext a; apply Fin.ext
    match a with
    | ⟨0, _⟩ => show win1_1.index t (0 : Fin 1) * 16 + 1 * q.val = q.val; omega
  · -- a block is all 16 columns wide: the column inside the block is the column of the array
    show win1_2.index t (1 : Fin 2) * 16 + 1 * (j 1).val = (j 1).val
    omega

/-- An index of the array is in point t's block iff each coordinate is in the block's range on its axis. -/
private theorem biasRelu_mem (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v44).slice (win1_2.rect t)).set ↔ _
  rw [View.set_slice_whole, Rect.mem_set_unit]
  exact Iff.rfl

/-- Row r of the array lies in the block of rows number r / 10000, which some point writes back. -/
private theorem biasRelu_covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := biasRelu_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [biasRelu_mem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the second pallas_call its output array holds relu (A + b) of its two operands' arrays. -/
theorem region1_final (c : Dev nD) :
    (dat1 (F := Ideal) V c).arrAt 2 cfg1.N = Gcn.relu (Gcn.addRow (V c main_v43) (V c main_arg3)) :=
  (dat1 (F := Ideal) V c).arrAt_eq_of_cover 2 (Gcn.relu (Gcn.addRow (V c main_v43) (V c main_arg3)))
    (fun t _ => biasRelu_flushed V c t) biasRelu_covered

end Cert.KernelIdeal.RegionValue

end
-- ==== Proof.Region2.lean ====
/-
  The third pallas_call's result array: log-softmax of the rows of A · W2 + b2, twenty-five blocks of 4000 rows at a time.
  Every step reads, in row p of its result, row p of the block only (the product, the bias, the row maximum, the row sum
  of exponentials), so block t of the result is that block of rows of the whole array's image.
-/
import proofs.«416209_j77369540870238_3_alg».proof.Proof.Gen.KernelIdeal.Frame
import proofs.«416209_j77369540870238_3_alg».proof.Proof.Spec
import proofs.«416209_j77369540870238_3_alg».proof.Proof.LibRowLayers
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The block's arithmetic, entry by entry -/

section Payload

-- The product's index maps, axis by axis: the left operand is read at (row, contracted coordinate), the right one at
-- (contracted coordinate, column).
private theorem headDot_lhs_row (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
private theorem headDot_lhs_contr (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
private theorem headDot_rhs_contr (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
private theorem headDot_rhs_col (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- The block's product into a zero accumulator, at (p, q): row p of the left operand against column q of the right. -/
private theorem product_apply {φ₁ φ₂ : FTy} (x : FVec Ideal S4000x16 φ₁) (w : FVec Ideal S16x64 φ₂) (p : Fin 4000) (q : Fin 64) :
    matmul dot_S4000x16_S16x64_S4000x64_1_0_0_1_n_n none x w (constant S4000x64 .f32 0x00000000#32) (ix2 p q)
      = ∑ k : Fin 16, x (ix2 p k) * w (ix2 k q) := by
  refine (Ideal.matmul_constant_zero_apply dot_S4000x16_S16x64_S4000x64_1_0_0_1_n_n none x w (ix2 p q)).trans ?_
  rw [← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact headDot_lhs_row _ _
    | ⟨1, _⟩ => exact (headDot_lhs_contr _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (headDot_rhs_contr _ _).trans hk
    | ⟨1, _⟩ => exact headDot_rhs_col _ _)
  rw [el, er]

/-- The largest entry of row p: a lane maximum along the columns from minus infinity. -/
private theorem rowMax_apply (y : FVec Ideal S4000x64 .f32) (hred : S4000x64.Reduces [1] S4000) (hfmt : FKind.Formats FTy.f32)
    (hacc : (0xFF800000#32 : BitVec FTy.f32.bits) = FKind.maximumf.neutral .f32 hfmt) (p : Fin 4000) :
    multiReduction (F := Ideal) .maximumf [1] S4000 y 0xFF800000#32 hred hfmt hacc (ix1 p)
      = (Finset.univ : Finset (Fin 64)).fold max (⊥ : EReal) fun q => y (ix2 p q) := by
  rw [Ideal.multiReduction_maximumf_single]
  have hbot : (FloatOps.ofBits (F := Ideal) .f32 0xFF800000#32 : EReal) = ⊥ := by
    simp [Ideal.ofBits, Ideal.ieee]
  rw [hbot]
  show (Finset.univ : Finset (Fin 64)).fold max (⊥ : EReal) (fun c => y (hred.lift (ix1 p) c)) = _
  refine Finset.fold_congr fun c _ => ?_
  rw [RowLayers.lift_cols]; rfl

/-- The sum of row p: a lane sum along the columns. -/
private theorem rowSum_apply (y : FVec Ideal S4000x64 .f32) (hred : S4000x64.Reduces [1] S4000) (hfmt : FKind.Formats FTy.f32)
    (hacc : (0x00000000#32 : BitVec FTy.f32.bits) = FKind.add.neutral .f32 hfmt) (p : Fin 4000) :
    multiReduction (F := Ideal) .add [1] S4000 y 0x00000000#32 hred hfmt hacc (ix1 p)
      = ∑ q : Fin 64, y (ix2 p q) := by
  rw [Ideal.multiReduction_add_single]
  refine Finset.sum_congr rfl fun c _ => ?_
  rw [RowLayers.lift_cols]; rfl

end Payload

section Block

/-- A block's affine image as the body spells it: operands narrowed (the identity on extended reals), multiplied into a
    zero accumulator, plus the bias vector cast to a row and repeated down the rows. -/
private abbrev affineBlock (x : FVec Ideal S4000x16 .f32) (w : FVec Ideal S16x64 .f32) (b : FVec Ideal S64 .f32) : FVec Ideal S4000x64 .f32 :=
  addf (matmul dot_S4000x16_S16x64_S4000x64_1_0_0_1_n_n none
      (truncf .bf16 (shapeCast S4000x16 x shapeCasts_S4000x16_S4000x16) bitsLt_bf16_f32) (truncf .bf16 w bitsLt_bf16_f32)
      (constant S4000x64 .f32 0x00000000#32))
    (broadcastTo S4000x64 (shapeCast S1x64 b shapeCasts_S64_S1x64) broadcasts_S1x64_S4000x64)

/-- It is x · w + b, entry by entry. -/
private theorem affineBlock_eq (x : FVec Ideal S4000x16 .f32) (w : FVec Ideal S16x64 .f32) (b : FVec Ideal S64 .f32) :
    affineBlock x w b = Gcn.addRow (Gcn.mm x w) b := by
  funext j
  obtain ⟨p, q, rfl⟩ : ∃ (p : Fin 4000) (q : Fin 64), j = ix2 p q := ⟨j 0, j 1, eq_ix2 j⟩
  show addf _ _ (ix2 p q) = _
  rw [addf_apply, product_apply, RowLayers.biasRow_apply, shapeCast_self]
  rfl

/-- The body's shifted log-softmax of a block Y at (p, q): the row maximum and the row sum of exponentials are lane
    reductions along the columns, cast to a column and repeated along the rows' entries. -/
private theorem logSoftmaxBlock_apply (Y : FVec Ideal S4000x64 .f32) (hred : S4000x64.Reduces [1] S4000) (hfmt : FKind.Formats FTy.f32)
    (hmax : (0xFF800000#32 : BitVec FTy.f32.bits) = FKind.maximumf.neutral .f32 hfmt)
    (hadd : (0x00000000#32 : BitVec FTy.f32.bits) = FKind.add.neutral .f32 hfmt)
    (hsc : S4000.ShapeCasts S4000x1) (hbc : S4000x1.Broadcasts S4000x64) (p : Fin 4000) (q : Fin 64) :
    subf (subf Y (broadcastTo S4000x64 (shapeCast S4000x1 (multiReduction (F := Ideal) .maximumf [1] S4000 Y 0xFF800000#32 hred hfmt hmax) hsc) hbc))
        (broadcastTo S4000x64 (log (shapeCast S4000x1 (multiReduction (F := Ideal) .add [1] S4000
          (exp (subf Y (broadcastTo S4000x64 (shapeCast S4000x1 (multiReduction (F := Ideal) .maximumf [1] S4000 Y 0xFF800000#32 hred hfmt hmax) hsc) hbc)))
          0x00000000#32 hred hfmt hadd) hsc)) hbc) (ix2 p q)
      = Gcn.logSoftmaxRows Y (ix2 p q) := by
  have hM : ∀ j : Fin 64, broadcastTo S4000x64 (shapeCast S4000x1 (multiReduction (F := Ideal) .maximumf [1] S4000 Y 0xFF800000#32 hred hfmt hmax) hsc) hbc (ix2 p j) = Gcn.rowMax Y p := by
    intro j
    rw [RowLayers.broadcastColumn_apply, RowLayers.column_apply, rowMax_apply]
    rfl
  rw [Gcn.logSoftmaxRows_apply, subf_apply, subf_apply, hM, RowLayers.broadcastColumn_apply]
  show _ - Ideal.log (shapeCast S4000x1 _ hsc (ix2 p (0 : Fin 1))) = _
  rw [RowLayers.column_apply, rowSum_apply]
  refine congrArg (fun s => _ - Ideal.log s) (Finset.sum_congr rfl fun j _ => ?_)
  show Ideal.exp (Y (ix2 p j) - _) = _
  rw [hM]

/-- What the body stores, entry by entry: the log-softmax of the rows of the block's own affine image. -/
private theorem head_payload (x : Vec Ideal S4000x16 .f32) (w : Vec Ideal S16x64 .f32) (b : Vec Ideal S64 .f32) :
    k2_pay1 (F := Ideal) x w b = Gcn.logSoftmaxRows (Gcn.addRow (Gcn.mm x w) b) := by
  funext j
  obtain ⟨p, q, rfl⟩ : ∃ (p : Fin 4000) (q : Fin 64), j = ix2 p q := ⟨j 0, j 1, eq_ix2 j⟩
  refine (logSoftmaxBlock_apply (affineBlock x w b) reduces_S4000x64_S4000 (.inl rfl) rfl rfl shapeCasts_S4000_S4000x1 broadcasts_S4000x1_S4000x64 p q).trans ?_
  rw [affineBlock_eq]

end Block

/-! ## Rows of a block are rows of the whole -/

section Rows

/-- Every step reads, in row p of its result, row p of the matrix operand only: when the rows of the block x are the
    rows σ p of the matrix A, row p of the block's image is row σ p of the whole image. -/
private theorem logSoftmax_rows {mb M k n : ℕ} (σ : Fin mb → Fin M) (x : Gcn.Mat mb k) (A : Gcn.Mat M k) (W : Gcn.Mat k n) (b : Gcn.Vc n)
    (hx : ∀ p c, x (ix2 p c) = A (ix2 (σ p) c)) (p : Fin mb) (q : Fin n) :
    Gcn.logSoftmaxRows (Gcn.addRow (Gcn.mm x W) b) (ix2 p q) = Gcn.logSoftmaxRows (Gcn.addRow (Gcn.mm A W) b) (ix2 (σ p) q) := by
  have hz : ∀ j : Fin n, Gcn.addRow (Gcn.mm x W) b (ix2 p j) = Gcn.addRow (Gcn.mm A W) b (ix2 (σ p) j) := fun j => by
    rw [Gcn.addRow_apply, Gcn.addRow_apply, Gcn.mm_apply, Gcn.mm_apply]
    simp only [hx]
  have hm : Gcn.rowMax (Gcn.addRow (Gcn.mm x W) b) p = Gcn.rowMax (Gcn.addRow (Gcn.mm A W) b) (σ p) := by
    unfold Gcn.rowMax
    exact Finset.fold_congr fun j _ => hz j
  rw [Gcn.logSoftmaxRows_apply, Gcn.logSoftmaxRows_apply, hm]
  simp only [hz]

/-- What the body stores at entry j of the block at grid point n, when its first operand's block is rows 4000 n and on
    of A and the other two are W and b whole: the whole image at the entry 4000 n rows further down. -/
private theorem head_point (A : Gcn.Mat 100000 16) (W : Gcn.Mat 16 64) (b : Gcn.Vc 64) (n : ℕ) (hn : n < 25)
    (x : Vec Ideal S4000x16 .f32) (w : Vec Ideal S16x64 .f32) (bb : Vec Ideal S64 .f32)
    (hx : ∀ (y : S4000x16.Idx) (k : S100000x16.Idx), (k 0).val = n * 4000 + (y 0).val → (k 1).val = (y 1).val → x y = A k)
    (hw : w = W) (hb : bb = b)
    (j : S4000x64.Idx) (i : S100000x64.Idx) (h0 : (i 0).val = n * 4000 + (j 0).val) (h1 : (i 1).val = (j 1).val) :
    k2_pay1 (F := Ideal) x w bb j = Gcn.logSoftmaxRows (Gcn.addRow (Gcn.mm A W) b) i := by
  subst hw hb
  obtain ⟨p, q, rfl⟩ : ∃ (p : Fin 4000) (q : Fin 64), j = ix2 p q := ⟨j 0, j 1, eq_ix2 j⟩
  have hi : i = ix2 (⟨n * 4000 + p.val, by omega⟩ : Fin 100000) q := by
    funext a; apply Fin.ext
    match a with
    | ⟨0, _⟩ => exact h0
    | ⟨1, _⟩ => exact h1
  rw [hi, head_payload]
  exact logSoftmax_rows (fun p : Fin 4000 => (⟨n * 4000 + p.val, by omega⟩ : Fin 100000)) x A w bb (fun p c => hx _ _ rfl rfl) p q

end Rows

/-! ## From the blocks to the array -/

private theorem noOffset2 : (![0, 0] : Fin 2 → Nat) = fun _ => 0 := funext fun a => by fin_cases a <;> rfl
private theorem noOffset1 : (![0] : Fin 1 → Nat) = fun _ => 0 := funext fun a => by fin_cases a <;> rfl

/-- The printed index maps over the grid: the first operand's and the result's blocks are block t of the rows, the other
    two operands are read whole. -/
private theorem headIndex_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

private theorem headPoint_lt (t : Fin cfg2.N) : t.val < 25 := Nat.lt_of_lt_of_eq t.isLt N_2

/-- The first operand's block at point t is rows 4000 t and on of its array. -/
private theorem head_rows (c : Dev nD) (t : Fin cfg2.N) (y : S4000x16.Idx) (k : S100000x16.Idx)
    (hk0 : (k 0).val = t.val * 4000 + (y 0).val) (hk1 : (k 1).val = (y 1).val) :
    (iblk2 (F := Ideal) V c 0 t : Vec Ideal S4000x16 .f32) y = (V c main_v57 : S100000x16.Idx → EReal) k := by
  obtain ⟨e0, e1, -⟩ := headIndex_facts t
  show V c main_v57 (((cfg2.win 0).blk t).view.emb y) = V c main_v57 k
  refine congrArg (V c main_v57) ?_
  funext a; apply Fin.ext
  match a with
  | ⟨0, _⟩ => show win2_0.index t (0 : Fin 2) * 4000 + 1 * (y 0).val = (k 0).val; omega
  | ⟨1, _⟩ => show win2_0.index t (1 : Fin 2) * 16 + 1 * (y 1).val = (k 1).val; omega

/-- The second operand's block is its whole array at every point. -/
private theorem head_weights (c : Dev nD) (t : Fin cfg2.N) :
    (iblk2 (F := Ideal) V c 1 t : Vec Ideal S16x64 .f32) = (V c main_arg4 : S16x64.Idx → EReal) := by
  obtain ⟨-, -, e0, e1, -⟩ := headIndex_facts t
  funext y
  show V c main_arg4 (((cfg2.win 1).blk t).view.emb y) = V c main_arg4 y
  refine congrArg (V c main_arg4) ?_
  funext a; apply Fin.ext
  match a with
  | ⟨0, _⟩ => show win2_1.index t (0 : Fin 2) * 16 + 1 * (y 0).val = (y 0).val; omega
  | ⟨1, _⟩ => show win2_1.index t (1 : Fin 2) * 64 + 1 * (y 1).val = (y 1).val; omega

/-- So is the third's. -/
private theorem head_bias (c : Dev nD) (t : Fin cfg2.N) :
    (iblk2 (F := Ideal) V c 2 t : Vec Ideal S64 .f32) = (V c main_arg5 : S64.Idx → EReal) := by
  obtain ⟨-, -, -, -, e0, -⟩ := headIndex_facts t
  funext y
  show V c main_arg5 (((cfg2.win 2).blk t).view.emb y) = V c main_arg5 y
  refine congrArg (V c main_arg5) ?_
  funext a; apply Fin.ext
  match a with
  | ⟨0, _⟩ => show win2_2.index t (0 : Fin 1) * 64 + 1 * (y 0).val = (y 0).val; omega

/-- What point t writes back is block t of the whole image. -/
private theorem head_flushed (c : Dev nD) (t : Fin cfg2.N) :
    (dat2 (F := Ideal) V c).flushed 3 t
      = ((cfg2.win 3).blk t).view.read (Elt Ideal)
          (Gcn.logSoftmaxRows (Gcn.addRow (Gcn.mm (V c main_v57) (V c main_arg4)) (V c main_arg5))) := by
  show (cfg2.win 3).cut (grid2.coords t) ((dat2 (F := Ideal) V c).after 3 t) = _
  rw [after2_3]
  unfold out2_3
  rw [View.canon_unit_zero noOffset2]
  simp only [View.ld_unit_zero (S := S4000x16) noOffset2, View.ld_unit_zero (S := S16x64) noOffset2, View.ld_unit_zero (S := S64) noOffset1]
  obtain ⟨-, -, -, -, -, e0, e1⟩ := headIndex_facts t
  funext j
  show k2_pay1 (F := Ideal) (iblk2 V c 0 t) (iblk2 V c 1 t) (iblk2 V c 2 t) j
    = Gcn.logSoftmaxRows (Gcn.addRow (Gcn.mm (V c main_v57) (V c main_arg4)) (V c main_arg5)) (((cfg2.win 3).blk t).view.emb j)
  refine head_point (V c main_v57) (V c main_arg4) (V c main_arg5) t.val (headPoint_lt t) (iblk2 V c 0 t) (iblk2 V c 1 t) (iblk2 V c 2 t)
    (fun y k hk0 hk1 => head_rows V c t y k hk0 hk1) (head_weights V c t) (head_bias V c t) j (((cfg2.win 3).blk t).view.emb j) ?_ ?_
  · show win2_3.index t (0 : Fin 2) * 4000 + 1 * (j 0).val = t.val * 4000 + (j 0).val; omega
  · show win2_3.index t (1 : Fin 2) * 64 + 1 * (j 1).val = (j 1).val; omega

/-- An index of the array is in point t's block iff each coordinate is in the block's range on its axis. -/
private theorem head_mem (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v58).slice (win2_3.rect t)).set ↔ _
  rw [View.set_slice_whole, Rect.mem_set_unit]
  exact Iff.rfl

/-- Row r is in the block of point r / 4000, which writes back. -/
private theorem head_covered (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 4000 :=
    ⟨⟨(i 0).val / 4000, Nat.lt_of_lt_of_eq (by omega : (i 0).val / 4000 < 25) N_2.symm⟩, rfl⟩
  obtain ⟨-, -, -, -, -, e0, e1⟩ := headIndex_facts t
  refine ⟨t, flush2_3 t, ?_⟩
  rw [head_mem]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 64 ≤ (i 1).val ∧ (i 1).val < win2_3.index t (1 : Fin 2) * 64 + 64; omega

/-- After the third pallas_call its output array holds the row-wise log-softmax of A · W2 + b2. -/
theorem region2_final (c : Dev nD) :
    (dat2 (F := Ideal) V c).arrAt 3 cfg2.N
      = Gcn.logSoftmaxRows (Gcn.addRow (Gcn.mm (V c main_v57) (V c main_arg4)) (V c main_arg5)) := by
  exact (dat2 (F := Ideal) V c).arrAt_eq_of_cover 3 _ (fun t _ => head_flushed V c t) head_covered

end Cert.KernelIdeal.RegionValue

end
-- ==== Proof.Graph.lean ====
/-
  The graph's index vectors and edge coefficients as functions of the edge array.

  The edge array has two rows of 3200000 node numbers: sources and targets. Each row is extended by the node numbers
  0 … 99999 (one self-loop per node). The degree of node n counts the extended edges whose target is n; an edge's
  coefficient is the product of 1/√degree at its (normalised, clamped) source and at its target, with 0 in place of
  1/√degree where the degree is not positive. A negative node number is normalised by adding the node count.
-/
import Idealize.ShloMosaic.PureOps.Ideal
import Idealize.ShloMosaic.Lib.ValueIdx

noncomputable section

namespace Gcn.Graph

open Idealize.ShloMosaic

variable {F : FTy → Type} [FloatOps F]

abbrev SEdges : Shape := ⟨2, ![2, 3200000]⟩
abbrev SRow : Shape := ⟨2, ![1, 3200000]⟩
abbrev SGiven : Shape := ⟨1, ![3200000]⟩
abbrev SNodes : Shape := ⟨1, ![100000]⟩
abbrev SAll : Shape := ⟨1, ![3300000]⟩
abbrev SCol : Shape := ⟨2, ![3300000, 1]⟩
abbrev S0 : Shape := ⟨0, ![]⟩

theorem catFact : Shape.Concatenates [SGiven, SNodes] SAll 0 := by decide
theorem slice0Fact : SEdges.Slices ![0, 0] SRow := by decide
theorem slice1Fact : SEdges.Slices ![1, 0] SRow := by decide
theorem castFact : SRow.ShapeCasts SGiven := by decide

/-- The sources (row 0 of the edge array), followed by the node numbers: the self-loops. -/
def srcVec (E : IVec SEdges 32) : IVec SAll 32 :=
  concatenate SAll 0 [⟨SGiven, shapeCast SGiven (extractStridedSlice SRow ![0, 0] E slice0Fact) castFact⟩,
    ⟨SNodes, iotaInDim SNodes 32 0⟩] catFact
/-- The targets (row 1 of the edge array), followed by the node numbers. -/
def dstVec (E : IVec SEdges 32) : IVec SAll 32 :=
  concatenate SAll 0 [⟨SGiven, shapeCast SGiven (extractStridedSlice SRow ![1, 0] E slice1Fact) castFact⟩,
    ⟨SNodes, iotaInDim SNodes 32 0⟩] catFact

/-- A negative node number has the node count added. -/
def normalise (v : IVec SAll 32) : IVec SAll 32 :=
  select (cmpi .slt v (broadcastInDim SAll ![] (by decide) (constantI S0 32 0#32)))
    (addi v (broadcastInDim SAll ![] (by decide) (constantI S0 32 100000#32))) v

/-- A vector of start indices as a column. -/
def col (v : IVec SAll 32) : IVec SCol 32 := broadcastInDim SCol ![0] (by decide) v

/-- The scatter of scalars into a vector of nodes, one start index per update. -/
def scatterNodes : ScatterDims SNodes SCol SAll where
  updateWindowDims := []
  insertedWindowDims := [0]
  scatterDimsToOperandDims := [0]
  indexVectorDim := 1

/-- The gather of scalars out of a vector of nodes, one start index per result. -/
def gatherNodes : GatherDims SNodes SCol SAll where
  offsetDims := []
  collapsedSliceDims := [0]
  operandBatchingDims := []
  startIndicesBatchingDims := []
  startIndexMap := [0]
  indexVectorDim := 1
  sliceSizes := ![1]

/-- The degree of every node: ones added at the targets. -/
def degree (dst : IVec SAll 32) : FVec F SNodes .f32 :=
  Host.scatterAdd scatterNodes (broadcastInDim SNodes ![] (by decide) (constant S0 .f32 0x00000000#32)) (col dst)
    (broadcastInDim SAll ![] (by decide) (constant S0 .f32 0x3F800000#32))

/-- 1/√degree where the degree is positive, 0 elsewhere. -/
def invSqrt (dst : IVec SAll 32) : FVec F SNodes .f32 :=
  select (cmpf (F := F) .ogt (degree dst) (broadcastInDim SNodes ![] (by decide) (constant S0 .f32 0x00000000#32)))
    (Host.rsqrt (degree dst)) (broadcastInDim SNodes ![] (by decide) (id (constant S0 .f32 0x00000000#32)))

/-- The coefficient of every edge. -/
def coefVec (E : IVec SEdges 32) : FVec F SAll .f32 :=
  mulf (Host.gather gatherNodes (invSqrt (F := F) (dstVec E)) (col (normalise (srcVec E))))
    (Host.gather gatherNodes (invSqrt (F := F) (dstVec E)) (col (normalise (dstVec E))))

/-- The column of start indices an aggregation gathers at. -/
def srcCol (E : IVec SEdges 32) : IVec SCol 32 := col (normalise (srcVec E))
/-- The column of start indices an aggregation scatters to. -/
def dstCol (E : IVec SEdges 32) : IVec SCol 32 := col (dstVec E)

end Gcn.Graph

end
-- ==== Proof.KernelGraph.lean ====
/-
  What the first stretch of host operations leaves for the aggregations: the two index vectors and the edge coefficients
  as functions of the edge array, and the two float arguments the first pallas_call reads, untouched.
-/
import proofs.«416209_j77369540870238_3_alg».proof.Proof.Gen.KernelIdeal.Frame
import proofs.«416209_j77369540870238_3_alg».proof.Proof.Graph
import Idealize.ShloMosaic.Lib.StableHlo.Run

set_option maxRecDepth 16384

noncomputable section

namespace Cert.KernelIdeal.KernelGraph

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## One stretch of host operations at a time, from any contents W -/

section Stretches

variable (W : Valuation τ sig (Elt Ideal))

/-- The first stretch leaves the source vector: row 0 of the edge array followed by the node numbers. -/
private theorem first_src :
    StableHlo.after hostOps0 W (Proc.devRef .tc main_v5) = Gcn.Graph.srcVec (W (Proc.devRef .tc main_arg1)) := by
  after_results; rfl

/-- … the target vector: row 1 followed by the node numbers. -/
private theorem first_dst :
    StableHlo.after hostOps0 W (Proc.devRef .tc main_v6) = Gcn.Graph.dstVec (W (Proc.devRef .tc main_arg1)) := by
  after_results; rfl

/-- … the test "the degree is positive", node by node. -/
private theorem first_positive :
    StableHlo.after hostOps0 W (Proc.devRef .tc main_v12)
      = cmpf (F := Ideal) .ogt (Gcn.Graph.degree (F := Ideal) (Gcn.Graph.dstVec (W (Proc.devRef .tc main_arg1))))
          (broadcastInDim Gcn.Graph.SNodes ![] (by decide) (constant (F := Ideal) Gcn.Graph.S0 .f32 0x00000000#32)) := by
  after_results; rfl

/-- … the inverse square root of the degree, node by node. -/
private theorem first_rsqrt :
    StableHlo.after hostOps0 W (Proc.devRef .tc main_v13)
      = Host.rsqrt (F := Ideal) (Gcn.Graph.degree (F := Ideal) (Gcn.Graph.dstVec (W (Proc.devRef .tc main_arg1)))) := by
  after_results; rfl

/-- … and the scalar zero. -/
private theorem first_zero :
    StableHlo.after hostOps0 W (Proc.devRef .tc main_cst_2) = constant (F := Ideal) Gcn.Graph.S0 .f32 0x00000000#32 := by
  after_results

/-- The second stretch selects, node by node, the inverse square root where the test holds and zero elsewhere. -/
private theorem second_invSqrt (dst : IVec Gcn.Graph.SAll 32)
    (hpos : W (Proc.devRef .tc main_v12)
      = cmpf (F := Ideal) .ogt (Gcn.Graph.degree (F := Ideal) dst)
          (broadcastInDim Gcn.Graph.SNodes ![] (by decide) (constant (F := Ideal) Gcn.Graph.S0 .f32 0x00000000#32)))
    (hrs : W (Proc.devRef .tc main_v13) = Host.rsqrt (F := Ideal) (Gcn.Graph.degree (F := Ideal) dst))
    (hz : W (Proc.devRef .tc main_cst_2) = constant (F := Ideal) Gcn.Graph.S0 .f32 0x00000000#32) :
    StableHlo.after hostOps0_1 W (Proc.devRef .tc main_v14) = Gcn.Graph.invSqrt (F := Ideal) dst := by
  after_results
  show select (W (Proc.devRef .tc main_v12)) (W (Proc.devRef .tc main_v13))
      (broadcastInDim S100000 ![] bcast_S_S100000 (id (W (Proc.devRef .tc main_cst_2)))) = _
  rw [hpos, hrs, hz]
  rfl

/-- The third stretch normalises the two index vectors, gathers the selected values at each, and multiplies. -/
private theorem third_coef (E : IVec Gcn.Graph.SEdges 32)
    (hsrc : W (Proc.devRef .tc main_v5) = Gcn.Graph.srcVec E)
    (hdst : W (Proc.devRef .tc main_v6) = Gcn.Graph.dstVec E)
    (hinv : W (Proc.devRef .tc main_v14) = Gcn.Graph.invSqrt (F := Ideal) (Gcn.Graph.dstVec E)) :
    StableHlo.after hostOps0_2 W (Proc.devRef .tc main_v29) = Gcn.Graph.coefVec (F := Ideal) E := by
  after_results_simp
  rw [hsrc, hdst, hinv]
  rfl

/-! What a stretch does not write it leaves as it was. -/

private theorem first_keeps_arg0 : StableHlo.after hostOps0 W (Proc.devRef .tc main_arg0) = W (Proc.devRef .tc main_arg0) := by after_results
private theorem first_keeps_arg2 : StableHlo.after hostOps0 W (Proc.devRef .tc main_arg2) = W (Proc.devRef .tc main_arg2) := by after_results
private theorem second_keeps_arg0 : StableHlo.after hostOps0_1 W (Proc.devRef .tc main_arg0) = W (Proc.devRef .tc main_arg0) := by after_results
private theorem second_keeps_arg2 : StableHlo.after hostOps0_1 W (Proc.devRef .tc main_arg2) = W (Proc.devRef .tc main_arg2) := by after_results
private theorem second_keeps_src : StableHlo.after hostOps0_1 W (Proc.devRef .tc main_v5) = W (Proc.devRef .tc main_v5) := by after_results
private theorem second_keeps_dst : StableHlo.after hostOps0_1 W (Proc.devRef .tc main_v6) = W (Proc.devRef .tc main_v6) := by after_results
private theorem third_keeps_arg0 : StableHlo.after hostOps0_2 W (Proc.devRef .tc main_arg0) = W (Proc.devRef .tc main_arg0) := by after_results
private theorem third_keeps_arg2 : StableHlo.after hostOps0_2 W (Proc.devRef .tc main_arg2) = W (Proc.devRef .tc main_arg2) := by after_results
private theorem third_keeps_src : StableHlo.after hostOps0_2 W (Proc.devRef .tc main_v5) = W (Proc.devRef .tc main_v5) := by after_results
private theorem third_keeps_dst : StableHlo.after hostOps0_2 W (Proc.devRef .tc main_v6) = W (Proc.devRef .tc main_v6) := by after_results

end Stretches

/-! ## The three stretches in a row, from the launch contents -/

/-- At the first pallas_call's entry the source vector is the edge array's row 0 with the self-loops. -/
theorem W3_src (c : Dev nD) :
    W3 m ρ c (Proc.devRef .tc main_v5) = Gcn.Graph.srcVec (m ((c : Thread nD τ).loc main_arg1)) := by
  exact (third_keeps_src (W2 m ρ c)).trans ((second_keeps_src (W1 m ρ c)).trans (first_src (W0 m ρ c)))

/-- … the target vector its row 1 with the self-loops. -/
theorem W3_dst (c : Dev nD) :
    W3 m ρ c (Proc.devRef .tc main_v6) = Gcn.Graph.dstVec (m ((c : Thread nD τ).loc main_arg1)) := by
  exact (third_keeps_dst (W2 m ρ c)).trans ((second_keeps_dst (W1 m ρ c)).trans (first_dst (W0 m ρ c)))

/-- … and the coefficient vector the product of the two gathered inverse square roots of the degrees. -/
theorem W3_coef (c : Dev nD) :
    W3 m ρ c (Proc.devRef .tc main_v29) = Gcn.Graph.coefVec (F := Ideal) (m ((c : Thread nD τ).loc main_arg1)) := by
  exact third_coef (W2 m ρ c) (W0 m ρ c (Proc.devRef .tc main_arg1))
    ((second_keeps_src (W1 m ρ c)).trans (first_src (W0 m ρ c)))
    ((second_keeps_dst (W1 m ρ c)).trans (first_dst (W0 m ρ c)))
    (second_invSqrt (W1 m ρ c) (Gcn.Graph.dstVec (W0 m ρ c (Proc.devRef .tc main_arg1)))
      (first_positive (W0 m ρ c)) (first_rsqrt (W0 m ρ c)) (first_zero (W0 m ρ c)))

/-- No host operation before the first pallas_call writes the first argument. -/
theorem W3_arg0 (c : Dev nD) : W3 m ρ c (Proc.devRef .tc main_arg0) = m ((c : Thread nD τ).loc main_arg0) := by
  exact (third_keeps_arg0 (W2 m ρ c)).trans ((second_keeps_arg0 (W1 m ρ c)).trans (first_keeps_arg0 (W0 m ρ c)))

/-- … nor the third. -/
theorem W3_arg2 (c : Dev nD) : W3 m ρ c (Proc.devRef .tc main_arg2) = m ((c : Thread nD τ).loc main_arg2) := by
  exact (third_keeps_arg2 (W2 m ρ c)).trans ((second_keeps_arg2 (W1 m ρ c)).trans (first_keeps_arg2 (W0 m ρ c)))

end Cert.KernelIdeal.KernelGraph

end
-- ==== Proof.LibSegmentSum.lean ====
/-
  The host's accumulating scatter and its gather, in the two arrangements a segment sum of gathered rows uses, read at
  an index over the extended reals.

  A scatter that adds update row e into operand row I[e] (one start index per update row, the row axis inserted, the
  other axis a window axis) gives, at (n, c), the operand's entry plus the sum of the updates' entries (e, c) over the
  rows e whose start index, read as a signed integer, is n; a row whose start index is outside the operand is dropped.
  A gather of whole rows reads, at (e, c), the operand's entry (I[e] clamped into the row range, c).
  The same for vectors in place of matrices.
-/
import Idealize.ShloMosaic.PureOps.Ideal
import Idealize.ShloMosaic.PureOps.Ideal.Laws
import Idealize.ShloMosaic.Lib.ValueIdx

noncomputable section

open scoped BigOperators

namespace SegmentSum

open Idealize.ShloMosaic Idealize.ShloMosaic.ValueIdx

variable {N E D w : Nat}

/-- The row scatter's dimension numbers as literals. -/
private abbrev rowsDims (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

/-- Where update entry (e, c') of the row scatter lands: at (n, c) exactly when c' = c and the start index of row e,
    read signed, is n. -/
private theorem resultIdx_rows
    (wf : ScatterDims.WF ⟨2, ![N, D]⟩ ⟨2, ![E, 1]⟩ ⟨2, ![E, D]⟩ [1] [0] [0] 1) (I : IVec ⟨2, ![E, 1]⟩ w)
    (e : Fin E) (c' : Fin D) (n : Fin N) (c : Fin D) :
    (rowsDims wf).resultIdx? (ix2 e c') I = some (ix2 n c)
      ↔ c' = c ∧ (I (ix2 e (0 : Fin 1))).toInt = (n.val : Int) := by
  have hm0 : (0 : Fin 2) ∈ (rowsDims wf).scatterDimsToOperandDims := List.mem_singleton.mpr rfl
  have hm1 : (1 : Fin 2) ∉ (rowsDims wf).scatterDimsToOperandDims := by
    have h10 : (1 : Fin 2) ∉ ([0] : List (Fin 2)) := by decide
    exact h10
  have hk0 : (0 : Fin 2) ∉ (rowsDims wf).sKept := show (0 : Fin 2) ∉ (List.finRange 2).filter (· ∉ [0]) by decide
  have hk1 : (1 : Fin 2) ∈ (rowsDims wf).sKept := show (1 : Fin 2) ∈ (List.finRange 2).filter (· ∉ [0]) by decide
  have hsi : (rowsDims wf).siIdx (ix2 e c') ⟨List.idxOf (0 : Fin 2) (rowsDims wf).scatterDimsToOperandDims,
      List.idxOf_lt_length_iff.2 hm0⟩ = ix2 e (0 : Fin 1) := by
    funext b; refine Fin.ext ?_
    match b with
    | ⟨0, _⟩ => rfl
    | ⟨1, _⟩ => rfl
  have hs0 : (rowsDims wf).start (ix2 e c') I 0 = (I (ix2 e (0 : Fin 1))).toInt := by
    unfold ScatterDims.start
    rw [dif_pos hm0, hsi]
  have hs1 : (rowsDims wf).start (ix2 e c') I 1 = 0 := by
    unfold ScatterDims.start
    rw [dif_neg hm1]
  have hw0 : (rowsDims wf).window (ix2 e c') 0 = 0 := by
    unfold ScatterDims.window
    rw [dif_neg hk0]
  have hw1 : (rowsDims wf).window (ix2 e c') 1 = c'.val := by
    unfold ScatterDims.window
    rw [dif_pos hk1]
    rfl
  unfold ScatterDims.resultIdx?
  split
  · rename_i h
    constructor
    · intro heq
      have hf := Option.some.inj heq
      have h0 : ((rowsDims wf).start (ix2 e c') I 0 + ((rowsDims wf).window (ix2 e c') 0 : Int)).toNat = n.val :=
        congrArg Fin.val (congrFun hf 0)
      have h1 : ((rowsDims wf).start (ix2 e c') I 1 + ((rowsDims wf).window (ix2 e c') 1 : Int)).toNat = c.val :=
        congrArg Fin.val (congrFun hf 1)
      have hb : 0 ≤ (rowsDims wf).start (ix2 e c') I 0 + ((rowsDims wf).window (ix2 e c') 0 : Int) := (h 0).1
      rw [hs0, hw0] at h0 hb
      rw [hs1, hw1] at h1
      exact ⟨Fin.ext (by omega), by omega⟩
    · rintro ⟨rfl, ht⟩
      congr 1
      funext a
      refine Fin.ext ?_
      match a with
      | ⟨0, _⟩ =>
        show ((rowsDims wf).start (ix2 e c') I 0 + ((rowsDims wf).window (ix2 e c') 0 : Int)).toNat = n.val
        rw [hs0, hw0, ht]; simp
      | ⟨1, _⟩ =>
        show ((rowsDims wf).start (ix2 e c') I 1 + ((rowsDims wf).window (ix2 e c') 1 : Int)).toNat = c'.val
        rw [hs1, hw1]; simp
  · rename_i h
    constructor
    · intro heq; exact absurd heq (by simp)
    · rintro ⟨rfl, ht⟩
      exfalso; apply h
      intro a
      match a with
      | ⟨0, _⟩ =>
        show 0 ≤ (rowsDims wf).start (ix2 e c') I 0 + ((rowsDims wf).window (ix2 e c') 0 : Int) ∧
          (rowsDims wf).start (ix2 e c') I 0 + ((rowsDims wf).window (ix2 e c') 0 : Int) < (N : Int)
        rw [hs0, hw0, ht]
        have := n.isLt
        omega
      | ⟨1, _⟩ =>
        show 0 ≤ (rowsDims wf).start (ix2 e c') I 1 + ((rowsDims wf).window (ix2 e c') 1 : Int) ∧
          (rowsDims wf).start (ix2 e c') I 1 + ((rowsDims wf).window (ix2 e c') 1 : Int) < (D : Int)
        rw [hs1, hw1]
        have := c'.isLt
        omega

/-- The accumulating scatter of rows, at (n, c). -/
theorem scatterAdd_rows_apply (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (x : FVec Ideal ⟨2, ![N, D]⟩ .f32) (I : IVec ⟨2, ![E, 1]⟩ w)
    (u : FVec Ideal ⟨2, ![E, D]⟩ .f32) (n : Fin N) (c : Fin D) :
    Host.scatterAdd d x I u (ix2 n c)
      = x (ix2 n c) + ∑ e ∈ Finset.univ.filter (fun e : Fin E => (I (ix2 e (0 : Fin 1))).toInt = (n.val : Int)), u (ix2 e c) := by
  obtain ⟨uw, iw, sd, iv, wf⟩ := d
  simp only at huw hiw hsd hiv
  subst huw hiw hsd hiv
  show Ideal.hostScatterAdd (rowsDims wf) x I u (ix2 n c) = _
  unfold Ideal.hostScatterAdd
  congr 1
  rw [Finset.sum_filter, sum_idx2, Finset.sum_filter]
  refine Finset.sum_congr rfl fun e _ => ?_
  simp only [resultIdx_rows]
  by_cases hP : (I (ix2 e (0 : Fin 1))).toInt = (n.val : Int)
  · simp [hP]
  · simp [hP]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers as literals. -/
private abbrev vecDims (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- Where update entry e of the vector scatter lands: at n exactly when the start index of e, read signed, is n. -/
private theorem resultIdx_vec
    (wf : ScatterDims.WF ⟨1, ![N]⟩ ⟨2, ![E, 1]⟩ ⟨1, ![E]⟩ [] [0] [0] 1) (I : IVec ⟨2, ![E, 1]⟩ w)
    (e : Fin E) (n : Fin N) :
    (vecDims wf).resultIdx? (ix1 e) I = some (ix1 n) ↔ (I (ix2 e (0 : Fin 1))).toInt = (n.val : Int) := by
  have hm0 : (0 : Fin 1) ∈ (vecDims wf).scatterDimsToOperandDims := List.mem_singleton.mpr rfl
  have hk0 : (0 : Fin 1) ∉ (vecDims wf).sKept := show (0 : Fin 1) ∉ (List.finRange 1).filter (· ∉ [0]) by decide
  have hsi : (vecDims wf).siIdx (ix1 e) ⟨List.idxOf (0 : Fin 1) (vecDims wf).scatterDimsToOperandDims,
      List.idxOf_lt_length_iff.2 hm0⟩ = ix2 e (0 : Fin 1) := by
    funext b; refine Fin.ext ?_
    match b with
    | ⟨0, _⟩ => rfl
    | ⟨1, _⟩ => rfl
  have hs0 : (vecDims wf).start (ix1 e) I 0 = (I (ix2 e (0 : Fin 1))).toInt := by
    unfold ScatterDims.start
    rw [dif_pos hm0, hsi]
  have hw0 : (vecDims wf).window (ix1 e) 0 = 0 := by
    unfold ScatterDims.window
    rw [dif_neg hk0]
  unfold ScatterDims.resultIdx?
  split
  · rename_i h
    constructor
    · intro heq
      have hf := Option.some.inj heq
      have h0 : ((vecDims wf).start (ix1 e) I 0 + ((vecDims wf).window (ix1 e) 0 : Int)).toNat = n.val :=
        congrArg Fin.val (congrFun hf 0)
      have hb : 0 ≤ (vecDims wf).start (ix1 e) I 0 + ((vecDims wf).window (ix1 e) 0 : Int) := (h 0).1
      rw [hs0, hw0] at h0 hb
      omega
    · intro ht
      congr 1
      funext a
      refine Fin.ext ?_
      match a with
      | ⟨0, _⟩ =>
        show ((vecDims wf).start (ix1 e) I 0 + ((vecDims wf).window (ix1 e) 0 : Int)).toNat = n.val
        rw [hs0, hw0, ht]; simp
  · rename_i h
    constructor
    · intro heq; exact absurd heq (by simp)
    · intro ht
      exfalso; apply h
      intro a
      match a with
      | ⟨0, _⟩ =>
        show 0 ≤ (vecDims wf).start (ix1 e) I 0 + ((vecDims wf).window (ix1 e) 0 : Int) ∧
          (vecDims wf).start (ix1 e) I 0 + ((vecDims wf).window (ix1 e) 0 : Int) < (N : Int)
        rw [hs0, hw0, ht]
        have := n.isLt
        omega

/-- The accumulating scatter of scalars into a vector, at n. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ .f32) (I : IVec ⟨2, ![E, 1]⟩ w)
    (u : FVec Ideal ⟨1, ![E]⟩ .f32) (n : Fin N) :
    Host.scatterAdd d x I u (ix1 n)
      = x (ix1 n) + ∑ e ∈ Finset.univ.filter (fun e : Fin E => (I (ix2 e (0 : Fin 1))).toInt = (n.val : Int)), u (ix1 e) := by
  obtain ⟨uw, iw, sd, iv, wf⟩ := d
  simp only at huw hiw hsd hiv
  subst huw hiw hsd hiv
  show Ideal.hostScatterAdd (vecDims wf) x I u (ix1 n) = _
  unfold Ideal.hostScatterAdd
  congr 1
  rw [Finset.sum_filter, sum_idx1, Finset.sum_filter]
  refine Finset.sum_congr rfl fun e _ => ?_
  simp only [resultIdx_vec]

/-- The gather of whole rows, at (e, c): the start index read signed and clamped into the row range. -/
theorem gather_rows_apply {α : Type} (d : GatherDims ⟨2, ![N, D]⟩ ⟨2, ![E, 1]⟩ ⟨2, ![E, D]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, D]) (hN : 0 < N)
    (x : (⟨2, ![N, D]⟩ : Shape).Idx → α) (I : IVec ⟨2, ![E, 1]⟩ w) (e : Fin E) (c : Fin D) :
    Host.gather d x I (ix2 e c) = x (ix2 (⟨min (I (ix2 e (0 : Fin 1))).toInt.toNat (N - 1), by omega⟩ : Fin N) c) := by
  obtain ⟨od, cd, ob, sb, sm, iv, ss, wf⟩ := d
  simp only at hod hcs hob hsb hsm hiv hss
  subst hod hcs hob hsb hsm hiv hss
  unfold Host.gather
  congr 1
  funext a
  refine Fin.ext ?_
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (GatherDims.mk (s := ⟨2, ![N, D]⟩) (si := ⟨2, ![E, 1]⟩) (t := ⟨2, ![E, D]⟩) [1] [0] [] [] [0] 1 ![1, D] wf).siIdx
        (ix2 e c) ⟨List.idxOf (0 : Fin 2) [0], List.idxOf_lt_length_iff.2 (List.mem_singleton.mpr rfl)⟩
        = ix2 e (0 : Fin 1) := by
      funext b; refine Fin.ext ?_
      match b with
      | ⟨0, _⟩ => rfl
      | ⟨1, _⟩ => rfl
    rw [hsi]
    rfl
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.add_zero, Nat.zero_add]
    unfold GatherDims.offCoord
    rw [dif_pos ((GatherDims.mem_sKept _ _).mpr ⟨show (1 : Fin 2) ∉ [0] by decide, List.not_mem_nil⟩)]
    rfl

/-- The gather of scalars out of a vector, at e. -/
theorem gather_vec_apply {α : Type} (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (hN : 0 < N)
    (x : (⟨1, ![N]⟩ : Shape).Idx → α) (I : IVec ⟨2, ![E, 1]⟩ w) (e : Fin E) :
    Host.gather d x I (ix1 e) = x (ix1 (⟨min (I (ix2 e (0 : Fin 1))).toInt.toNat (N - 1), by omega⟩ : Fin N)) := by
  obtain ⟨od, cd, ob, sb, sm, iv, ss, wf⟩ := d
  simp only at hod hcs hob hsb hsm hiv hss
  subst hod hcs hob hsb hsm hiv hss
  unfold Host.gather
  congr 1
  funext a
  refine Fin.ext ?_
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (GatherDims.mk (s := ⟨1, ![N]⟩) (si := ⟨2, ![E, 1]⟩) (t := ⟨1, ![E]⟩) [] [0] [] [] [0] 1 ![1] wf).siIdx
        (ix1 e) ⟨List.idxOf (0 : Fin 1) [0], List.idxOf_lt_length_iff.2 (List.mem_singleton.mpr rfl)⟩
        = ix2 e (0 : Fin 1) := by
      funext b; refine Fin.ext ?_
      match b with
      | ⟨0, _⟩ => rfl
      | ⟨1, _⟩ => rfl
    rw [hsi]
    rfl

end SegmentSum

end
-- ==== Proof.AggRead.lean ====
/-
  The aggregation as the host programs spell it, read at an index.

  Both programs aggregate a matrix h with the same six operations: gather the source row of every edge, multiply it by
  the edge's coefficient (a vector made a column and spread along the row), and add the products into a zero matrix at
  the row the edge points to. Read entry by entry this is the sum, over the edges into row n, of the source row's entry
  times the coefficient: the specification's aggregation.
-/
import proofs.«416209_j77369540870238_3_alg».proof.Proof.Spec
import proofs.«416209_j77369540870238_3_alg».proof.Proof.LibSegmentSum
import proofs.«416209_j77369540870238_3_alg».proof.Proof.LibRowLayers

noncomputable section

open scoped BigOperators

namespace Gcn

open Idealize.ShloMosaic Idealize.ShloMosaic.ValueIdx

/-- The six host operations of one aggregation of a matrix with D columns, over any scatter and gather records of the
    row-wise kind. -/
abbrev aggOps {D : Nat} (dS : ScatterDims ⟨2, ![100000, D]⟩ ⟨2, ![3300000, 1]⟩ ⟨2, ![3300000, D]⟩)
    (dG : GatherDims ⟨2, ![100000, D]⟩ ⟨2, ![3300000, 1]⟩ ⟨2, ![3300000, D]⟩)
    (hz : (⟨0, ![]⟩ : Shape).BroadcastsInDim ⟨2, ![100000, D]⟩ ![])
    (hc1 : (⟨1, ![3300000]⟩ : Shape).BroadcastsInDim ⟨2, ![3300000, 1]⟩ ![0])
    (hc2 : (⟨2, ![3300000, 1]⟩ : Shape).BroadcastsInDim ⟨2, ![3300000, D]⟩ ![0, 1])
    (Isrc Idst : EdgeCol) (coef : Vc 3300000) (h : Mat 100000 D) : Mat 100000 D :=
  Host.scatterAdd (F := Ideal) (φ := .f32) dS (broadcastInDim ⟨2, ![100000, D]⟩ ![] hz (constant (F := Ideal) ⟨0, ![]⟩ .f32 0x00000000#32)) Idst
    (mulf (F := Ideal) (φ := .f32) (Host.gather dG h Isrc)
      (broadcastInDim ⟨2, ![3300000, D]⟩ ![0, 1] hc2 (broadcastInDim ⟨2, ![3300000, 1]⟩ ![0] hc1 coef)))

/-- The host's aggregation is the specification's. -/
theorem aggOps_eq {D : Nat} (dS : ScatterDims ⟨2, ![100000, D]⟩ ⟨2, ![3300000, 1]⟩ ⟨2, ![3300000, D]⟩)
    (huw : dS.updateWindowDims = [1]) (hiw : dS.insertedWindowDims = [0]) (hsd : dS.scatterDimsToOperandDims = [0])
    (hiv : dS.indexVectorDim = 1)
    (dG : GatherDims ⟨2, ![100000, D]⟩ ⟨2, ![3300000, 1]⟩ ⟨2, ![3300000, D]⟩)
    (hod : dG.offsetDims = [1]) (hcs : dG.collapsedSliceDims = [0]) (hob : dG.operandBatchingDims = [])
    (hsb : dG.startIndicesBatchingDims = []) (hsm : dG.startIndexMap = [0]) (hiv' : dG.indexVectorDim = 1)
    (hss : dG.sliceSizes = ![1, D])
    (hz : (⟨0, ![]⟩ : Shape).BroadcastsInDim ⟨2, ![100000, D]⟩ ![])
    (hc1 : (⟨1, ![3300000]⟩ : Shape).BroadcastsInDim ⟨2, ![3300000, 1]⟩ ![0])
    (hc2 : (⟨2, ![3300000, 1]⟩ : Shape).BroadcastsInDim ⟨2, ![3300000, D]⟩ ![0, 1])
    (Isrc Idst : EdgeCol) (coef : Vc 3300000) (h : Mat 100000 D) :
    aggOps dS dG hz hc1 hc2 Isrc Idst coef h = agg Isrc Idst coef h := by
  funext i
  obtain ⟨n, c, rfl⟩ : ∃ (n : Fin 100000) (c : Fin D), i = ix2 n c := ⟨i 0, i 1, eq_ix2 i⟩
  rw [agg_apply]
  unfold aggOps
  rw [SegmentSum.scatterAdd_rows_apply dS huw hiw hsd hiv, RowLayers.scalarBroadcast_apply, Ideal.ofBits_zero_f32, zero_add]
  refine Finset.sum_congr rfl fun e _ => ?_
  rw [mulf_apply, SegmentSum.gather_rows_apply dG hod hcs hob hsb hsm hiv' hss (by decide),
    RowLayers.columnAcross_apply, RowLayers.columnBroadcast_apply]
  rfl

end Gcn

end
-- ==== Proof.KernelValue.lean ====
/-
  The idealized kernel's result array as one function of its arguments.

  The program is three pallas_calls among stretches of host operations. Walking the buffer contents from boundary to
  boundary: the first call leaves x · W1; the host aggregates it; the second call adds the bias and clips at zero; the
  host aggregates again; the third call multiplies by W2, adds the bias and takes the row-wise log-softmax. The index
  vectors and the edge coefficients are computed before the first call and are not written afterwards.
-/
import proofs.«416209_j77369540870238_3_alg».proof.Proof.Gen.KernelIdeal.Frame
import proofs.«416209_j77369540870238_3_alg».proof.Proof.Region0
import proofs.«416209_j77369540870238_3_alg».proof.Proof.Region1
import proofs.«416209_j77369540870238_3_alg».proof.Proof.Region2
import proofs.«416209_j77369540870238_3_alg».proof.Proof.KernelGraph
import proofs.«416209_j77369540870238_3_alg».proof.Proof.AggRead
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

/-- The six host operations of one aggregation, over this program's records. -/
def aggHost (src dst : IVec S3300000 32) (coef : FVec Ideal S3300000 .f32) (h : FVec Ideal S100000x16 .f32) :
    FVec Ideal S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf
      (Host.gather gather_S100000x16_S3300000x1_S3300000x16_1_0_n_n_0_1_116 h
        (broadcastInDim S3300000x1 ![0] bcast_S3300000_S3300000x1_0
          (select (cmpi .slt src (broadcastInDim S3300000 ![] bcast_S_S3300000 (constantI S_ 32 0#32)))
            (addi src (broadcastInDim S3300000 ![] bcast_S_S3300000 (constantI S_ 32 100000#32))) src)))
      (broadcastInDim S3300000x16 ![0, 1] bcast_S3300000x1_S3300000x16_0_1
        (broadcastInDim S3300000x1 ![0] bcast_S3300000_S3300000x1_0 coef)))

/-- Read entry by entry, the host's aggregation is the specification's. -/
theorem aggHost_eq (src dst : IVec S3300000 32) (coef : FVec Ideal S3300000 .f32) (h : FVec Ideal S100000x16 .f32) :
    aggHost src dst coef h = Gcn.agg (Gcn.Graph.col (Gcn.Graph.normalise src)) (Gcn.Graph.col dst) coef h :=
  Gcn.aggOps_eq scatter_S100000x16_S3300000x1_S3300000x16_1_0_0_1 rfl rfl rfl rfl
    gather_S100000x16_S3300000x1_S3300000x16_1_0_n_n_0_1_116 rfl rfl rfl rfl rfl rfl rfl
    bcast_S_S100000x16 bcast_S3300000_S3300000x1_0 bcast_S3300000x1_S3300000x16_0_1 _ _ coef h

set_option maxHeartbeats 4000000 in
/-- The stretch between the first two pallas_calls aggregates the first call's result. -/
theorem after_hostOps1 (W : Valuation τ sig (Elt Ideal)) :
    StableHlo.after hostOps1 W (Proc.devRef .tc main_v43)
      = aggHost (W (Proc.devRef .tc main_v5)) (W (Proc.devRef .tc main_v6)) (W (Proc.devRef .tc main_v29))
          (W (Proc.devRef .tc main_v30)) := by
  after_results
  rfl

set_option maxHeartbeats 4000000 in
/-- The stretch between the last two pallas_calls aggregates the second call's result. -/
theorem after_hostOps2 (W : Valuation τ sig (Elt Ideal)) :
    StableHlo.after hostOps2 W (Proc.devRef .tc main_v57)
      = aggHost (W (Proc.devRef .tc main_v5)) (W (Proc.devRef .tc main_v6)) (W (Proc.devRef .tc main_v29))
          (W (Proc.devRef .tc main_v44)) := by
  after_results
  rfl

/-- A buffer no operation of a stretch writes keeps its contents over the stretch. -/
macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The index vectors and the coefficients at the later boundaries -/

theorem W4_keep (c : Dev nD) (b : Ref sig .tc) (hb : ∀ w, Pipeline.arrRef spec0 w ≠ b) :
    W4 m ρ c (Proc.devRef .tc b) = W3 m ρ c (Proc.devRef .tc b) := W4_of_ne m ρ c b hb

theorem W5_v5 (c : Dev nD) : W5 m ρ c (Proc.devRef .tc main_v5) = W4 m ρ c (Proc.devRef .tc main_v5) := by unwritten hostOps1
theorem W5_v6 (c : Dev nD) : W5 m ρ c (Proc.devRef .tc main_v6) = W4 m ρ c (Proc.devRef .tc main_v6) := by unwritten hostOps1
theorem W5_v29 (c : Dev nD) : W5 m ρ c (Proc.devRef .tc main_v29) = W4 m ρ c (Proc.devRef .tc main_v29) := by unwritten hostOps1
theorem W5_arg3 (c : Dev nD) : W5 m ρ c (Proc.devRef .tc main_arg3) = W4 m ρ c (Proc.devRef .tc main_arg3) := by unwritten hostOps1
theorem W7_arg4 (c : Dev nD) : W7 m ρ c (Proc.devRef .tc main_arg4) = W6 m ρ c (Proc.devRef .tc main_arg4) := by unwritten hostOps2
theorem W7_arg5 (c : Dev nD) : W7 m ρ c (Proc.devRef .tc main_arg5) = W6 m ρ c (Proc.devRef .tc main_arg5) := by unwritten hostOps2
theorem W7_arg3 (c : Dev nD) : W7 m ρ c (Proc.devRef .tc main_arg3) = W6 m ρ c (Proc.devRef .tc main_arg3) := by unwritten hostOps2

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-! ## The result -/

/-- The result array of the idealized kernel: the output with the second aggregation done before the projection, over
    the hidden layer, both over the graph's index columns and coefficients. -/
theorem kernel_value (c : Dev nD) :
    W8 m ρ c (Proc.devRef .tc main_v58)
      = Gcn.outAggFirst (Gcn.Graph.srcCol (m ((c : Thread nD τ).loc main_arg1))) (Gcn.Graph.dstCol (m ((c : Thread nD τ).loc main_arg1)))
          (Gcn.Graph.coefVec (F := Ideal) (m ((c : Thread nD τ).loc main_arg1)))
          (Gcn.hidden (Gcn.Graph.srcCol (m ((c : Thread nD τ).loc main_arg1))) (Gcn.Graph.dstCol (m ((c : Thread nD τ).loc main_arg1)))
            (Gcn.Graph.coefVec (F := Ideal) (m ((c : Thread nD τ).loc main_arg1)))
            (m ((c : Thread nD τ).loc main_arg0)) (m ((c : Thread nD τ).loc main_arg2)) (m ((c : Thread nD τ).loc main_arg3)))
          (m ((c : Thread nD τ).loc main_arg4)) (m ((c : Thread nD τ).loc main_arg5)) := by
  -- the graph's vectors, unchanged from the first pallas_call's entry on
  have s4 := (W4_of_ne m ρ c main_v5 (by decide)).trans (KernelGraph.W3_src m ρ c)
  have d4 := (W4_of_ne m ρ c main_v6 (by decide)).trans (KernelGraph.W3_dst m ρ c)
  have k4 := (W4_of_ne m ρ c main_v29 (by decide)).trans (KernelGraph.W3_coef m ρ c)
  have s6 := (W6_of_ne m ρ c main_v5 (by decide)).trans ((W5_v5 m ρ c).trans s4)
  have d6 := (W6_of_ne m ρ c main_v6 (by decide)).trans ((W5_v6 m ρ c).trans d4)
  have k6 := (W6_of_ne m ρ c main_v29 (by decide)).trans ((W5_v29 m ρ c).trans k4)
  -- the float arguments where the pallas_calls read them
  have a0 : V3 m ρ c main_arg0 = m ((c : Thread nD τ).loc main_arg0) := KernelGraph.W3_arg0 m ρ c
  have a2 : V3 m ρ c main_arg2 = m ((c : Thread nD τ).loc main_arg2) := KernelGraph.W3_arg2 m ρ c
  have a3 : V5 m ρ c main_arg3 = m ((c : Thread nD τ).loc main_arg3) :=
    (W5_arg3 m ρ c).trans ((W4_of_ne m ρ c main_arg3 (by decide)).trans (W3_arg3 m ρ c))
  have a4 : V7 m ρ c main_arg4 = m ((c : Thread nD τ).loc main_arg4) :=
    (W7_arg4 m ρ c).trans ((W6_of_ne m ρ c main_arg4 (by decide)).trans
      ((by unwritten hostOps1 : W5 m ρ c (Proc.devRef .tc main_arg4) = W4 m ρ c (Proc.devRef .tc main_arg4)).trans
        ((W4_of_ne m ρ c main_arg4 (by decide)).trans (W3_arg4 m ρ c))))
  have a5 : V7 m ρ c main_arg5 = m ((c : Thread nD τ).loc main_arg5) :=
    (W7_arg5 m ρ c).trans ((W6_of_ne m ρ c main_arg5 (by decide)).trans
      ((by unwritten hostOps1 : W5 m ρ c (Proc.devRef .tc main_arg5) = W4 m ρ c (Proc.devRef .tc main_arg5)).trans
        ((W4_of_ne m ρ c main_arg5 (by decide)).trans (W3_arg5 m ρ c))))
  -- the first pallas_call's result
  have p4 : W4 m ρ c (Proc.devRef .tc main_v30) = Gcn.mm (m ((c : Thread nD τ).loc main_arg0)) (m ((c : Thread nD τ).loc main_arg2)) := by
    refine (W4_arr m ρ c 2).trans ((RegionValue.region0_final (V3 m ρ) c).trans ?_)
    rw [a0, a2]
  -- its aggregation
  have g5 : V5 m ρ c main_v43 = Gcn.agg (Gcn.Graph.srcCol (m ((c : Thread nD τ).loc main_arg1))) (Gcn.Graph.dstCol (m ((c : Thread nD τ).loc main_arg1)))
      (Gcn.Graph.coefVec (F := Ideal) (m ((c : Thread nD τ).loc main_arg1))) (Gcn.mm (m ((c : Thread nD τ).loc main_arg0)) (m ((c : Thread nD τ).loc main_arg2))) := by
    refine (after_hostOps1 (W4 m ρ c)).trans ?_
    rw [s4, d4, k4, p4, aggHost_eq]
    rfl
  -- the second pallas_call's result
  have h6 : W6 m ρ c (Proc.devRef .tc main_v44) = Gcn.hidden (Gcn.Graph.srcCol (m ((c : Thread nD τ).loc main_arg1))) (Gcn.Graph.dstCol (m ((c : Thread nD τ).loc main_arg1)))
      (Gcn.Graph.coefVec (F := Ideal) (m ((c : Thread nD τ).loc main_arg1))) (m ((c : Thread nD τ).loc main_arg0)) (m ((c : Thread nD τ).loc main_arg2)) (m ((c : Thread nD τ).loc main_arg3)) := by
    refine (W6_arr m ρ c 2).trans ((RegionValue.region1_final (V5 m ρ) c).trans ?_)
    rw [g5, a3]
    rfl
  -- its aggregation
  have g7 : V7 m ρ c main_v57 = Gcn.agg (Gcn.Graph.srcCol (m ((c : Thread nD τ).loc main_arg1))) (Gcn.Graph.dstCol (m ((c : Thread nD τ).loc main_arg1)))
      (Gcn.Graph.coefVec (F := Ideal) (m ((c : Thread nD τ).loc main_arg1)))
      (Gcn.hidden (Gcn.Graph.srcCol (m ((c : Thread nD τ).loc main_arg1))) (Gcn.Graph.dstCol (m ((c : Thread nD τ).loc main_arg1)))
        (Gcn.Graph.coefVec (F := Ideal) (m ((c : Thread nD τ).loc main_arg1))) (m ((c : Thread nD τ).loc main_arg0)) (m ((c : Thread nD τ).loc main_arg2)) (m ((c : Thread nD τ).loc main_arg3))) := by
    refine (after_hostOps2 (W6 m ρ c)).trans ?_
    rw [s6, d6, k6, h6, aggHost_eq]
    rfl
  -- the third pallas_call's result
  refine (W8_arr m ρ c 3).trans ((RegionValue.region2_final (V7 m ρ) c).trans ?_)
  rw [g7, a4, a5]
  rfl

end Cert.KernelIdeal.KernelValue

end
-- ==== Proof.RefHost.lean ====
/-
  The reference program's layers as named whole-array functions, in the host operations the program prints, and the
  whole result as their composition over the graph's index columns and coefficients.
-/
import proofs.«416209_j77369540870238_3_alg».proof.Proof.Gen.ReferenceIdeal
import proofs.«416209_j77369540870238_3_alg».proof.Proof.Graph

noncomputable section

namespace Cert.ReferenceIdeal.RefHost

open Cert.ReferenceIdeal Cert.ReferenceIdeal.Gen Idealize.ShloMosaic

variable {F : FTy → Type} [FloatOps F]

/-- One aggregation of a matrix with 16 columns: gather, scale, add into zeros. -/
def agg16 (Isrc Idst : IVec S3300000x1 32) (coef : FVec F S3300000 .f32) (h : FVec F S100000x16 .f32) : FVec F S100000x16 .f32 :=
  Host.scatterAdd scatter_S100000x16_S3300000x1_S3300000x16_1_0_0_1
    (broadcastInDim S100000x16 ![] bcast_S_S100000x16 (constant S_ .f32 0x00000000#32)) Idst
    (mulf (Host.gather gather_S100000x16_S3300000x1_S3300000x16_1_0_n_n_0_1_116 h Isrc)
      (broadcastInDim S3300000x16 ![0, 1] bcast_S3300000x1_S3300000x16_0_1
        (broadcastInDim S3300000x1 ![0] bcast_S3300000_S3300000x1_0 coef)))

/-- The same for a matrix with 64 columns. -/
def agg64 (Isrc Idst : IVec S3300000x1 32) (coef : FVec F S3300000 .f32) (h : FVec F S100000x64 .f32) : FVec F S100000x64 .f32 :=
  Host.scatterAdd scatter_S100000x64_S3300000x1_S3300000x64_1_0_0_1
    (broadcastInDim S100000x64 ![] bcast_S_S100000x64 (constant S_ .f32 0x00000000#32)) Idst
    (mulf (Host.gather gather_S100000x64_S3300000x1_S3300000x64_1_0_n_n_0_1_164 h Isrc)
      (broadcastInDim S3300000x64 ![0, 1] bcast_S3300000x1_S3300000x64_0_1
        (broadcastInDim S3300000x1 ![0] bcast_S3300000_S3300000x1_0 coef)))

/-- x · W1. -/
def proj1 (x : FVec F S100000x512 .f32) (w : FVec F S512x16 .f32) : FVec F S100000x16 .f32 :=
  Host.dotGeneral dot_S100000x512_S512x16_S100000x16_1_0_0_1_n_n none x w

/-- H · W2. -/
def proj2 (h : FVec F S100000x16 .f32) (w : FVec F S16x64 .f32) : FVec F S100000x64 .f32 :=
  Host.dotGeneral dot_S100000x16_S16x64_S100000x64_1_0_0_1_n_n none h w

/-- The first bias added to every row, then the larger of each entry and zero. -/
def biasRelu (a : FVec F S100000x16 .f32) (b : FVec F S16 .f32) : FVec F S100000x16 .f32 :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The second bias added to every row. -/
def bias2 (a : FVec F S100000x64 .f32) (b : FVec F S64 .f32) : FVec F S100000x64 .f32 :=
  addf a (broadcastInDim S100000x64 ![0, 1] bcast_S1x64_S100000x64_0_1 (broadcastInDim S1x64 ![1] bcast_S64_S1x64_1 b))

/-- Each row less its maximum. -/
def shifted (z : FVec F S100000x64 .f32) : FVec F S100000x64 .f32 :=
  subf z (broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x64_S100000_d1 h_S_))))

/-- The row-wise log-softmax. -/
def logSoftmax (z : FVec F S100000x64 .f32) : FVec F S100000x64 .f32 :=
  subf (shifted z) (broadcastInDim S100000x64 ![0, 1] bcast_S100000x1_S100000x64_0_1 (Host.log (broadcastInDim S100000x1 ![0] bcast_S100000_S100000x1_0
    (Host.reduceAdd (Host.exp (shifted z)) (constant S_ .f32 0x00000000#32) reducesTo_S100000x64_S100000_d1 h_S_))))

/-- The whole reference as one function of its six arguments. -/
def result (x0 : FVec F S100000x512 .f32) (x1 : IVec S2x3200000 32) (x2 : FVec F S512x16 .f32) (x3 : FVec F S16 .f32)
    (x4 : FVec F S16x64 .f32) (x5 : FVec F S64 .f32) : FVec F S100000x64 .f32 :=
  logSoftmax (bias2 (agg64 (Gcn.Graph.srcCol x1) (Gcn.Graph.dstCol x1) (Gcn.Graph.coefVec (F := F) x1)
    (proj2 (biasRelu (agg16 (Gcn.Graph.srcCol x1) (Gcn.Graph.dstCol x1) (Gcn.Graph.coefVec (F := F) x1) (proj1 x0 x2)) x3) x4)) x5)

end Cert.ReferenceIdeal.RefHost

end
-- ==== Proof.RefChain.lean ====
/-
  The reference program's fold read: after its 131 host operations the result buffer holds the composition of the
  named layers (aggregate x·W1, bias and relu, project by W2, aggregate, bias, log-softmax) over the graph's index
  columns and coefficients, all as functions of the six argument buffers.
-/
import proofs.«416209_j77369540870238_3_alg».proof.Proof.RefRun
import proofs.«416209_j77369540870238_3_alg».proof.Proof.RefHost
import Idealize.ShloMosaic.Lib.StableHlo.Run
import Idealize.ShloMosaic.Lib.Pipeline.Frame

set_option maxRecDepth 16384

noncomputable section

namespace Cert.ReferenceIdeal.RefChain

open Cert.ReferenceIdeal Cert.ReferenceIdeal.Gen
open Idealize.ShloMosaic Idealize.ShloMosaic.TcCoe Idealize.SL.Sem Idealize.ShloMosaic.StableHlo

/-! ## The cut -/

/-- The operations from position a on, b of them. -/
private def piece (a b : Nat) : List (HloOp τ sig (Elt Ideal)) := ((Cert.ReferenceIdeal.ValueP.ops (F := Ideal)).drop a).take b

/-- The 131 operations are ten consecutive pieces: the index vectors and x·W1; the inverse square roots of the degrees;
    the coefficients; the first aggregation; bias, relu and the second projection; the inverse square roots and the
    coefficients once more; the second aggregation; the second bias; the log-softmax. -/
private theorem cut_all : Cert.ReferenceIdeal.ValueP.ops (F := Ideal)
    = piece 0 8 ++ (piece 8 14 ++ (piece 22 19 ++ (piece 41 16 ++ (piece 57 7 ++ (piece 64 14 ++ (piece 78 19
        ++ (piece 97 16 ++ (piece 113 3 ++ piece 116 15)))))))) := rfl

/-- Writes a piece out as the list of its operations. -/
local macro "open_piece" : tactic =>
  `(tactic| simp only [piece, Cert.ReferenceIdeal.ValueP.ops, List.drop_succ_cons, List.drop_zero, List.take_succ_cons, List.take_zero])

/-! ## Contents carried to a called function's typed buffers and back -/

/-- Contents carried to a typed reference's buffer and back are the contents. -/
private theorem ofBuf_toBuf {T : BufTy} (x : TRef sig T) (v : T.Contents (Elt Ideal)) : x.ofBuf (x.toBuf v) = v := by
  obtain ⟨r, h, h2, h3⟩ := x
  subst h
  rfl

/-! Where a called function reads a buffer the caller wrote, or the caller reads one the function wrote, the carrying is
    the identity, the buffer's type being the value's. -/
private theorem in_v13 (p1 p2 p3) (v : (⟨S100000, .i1⟩ : BufTy).Contents (Elt Ideal)) :
    (TRef.of (T := ⟨S100000, .i1⟩) main_v13 p1 p2 p3).ofBuf v = v := rfl
private theorem in_v14 (p1 p2 p3) (v : (⟨S100000, .f32⟩ : BufTy).Contents (Elt Ideal)) :
    (TRef.of (T := ⟨S100000, .f32⟩) main_v14 p1 p2 p3).ofBuf v = v := rfl
private theorem in_cst_2 (p1 p2 p3) (v : (⟨S_, .f32⟩ : BufTy).Contents (Elt Ideal)) :
    (TRef.of (T := ⟨S_, .f32⟩) main_cst_2 p1 p2 p3).ofBuf v = v := rfl
private theorem out_v15 (p1 p2 p3) (v : (⟨S100000, .f32⟩ : BufTy).Contents (Elt Ideal)) :
    (TRef.of (T := ⟨S100000, .f32⟩) main_v15 p1 p2 p3).toBuf v = v := rfl
private theorem in_v46 (p1 p2 p3) (v : (⟨S100000x16, .f32⟩ : BufTy).Contents (Elt Ideal)) :
    (TRef.of (T := ⟨S100000x16, .f32⟩) main_v46 p1 p2 p3).ofBuf v = v := rfl
private theorem out_v47 (p1 p2 p3) (v : (⟨S100000x16, .f32⟩ : BufTy).Contents (Elt Ideal)) :
    (TRef.of (T := ⟨S100000x16, .f32⟩) main_v47 p1 p2 p3).toBuf v = v := rfl
private theorem in_v54 (p1 p2 p3) (v : (⟨S100000, .i1⟩ : BufTy).Contents (Elt Ideal)) :
    (TRef.of (T := ⟨S100000, .i1⟩) main_v54 p1 p2 p3).ofBuf v = v := rfl
private theorem in_v55 (p1 p2 p3) (v : (⟨S100000, .f32⟩ : BufTy).Contents (Elt Ideal)) :
    (TRef.of (T := ⟨S100000, .f32⟩) main_v55 p1 p2 p3).ofBuf v = v := rfl
private theorem in_cst_12 (p1 p2 p3) (v : (⟨S_, .f32⟩ : BufTy).Contents (Elt Ideal)) :
    (TRef.of (T := ⟨S_, .f32⟩) main_cst_12 p1 p2 p3).ofBuf v = v := rfl
private theorem out_v56 (p1 p2 p3) (v : (⟨S100000, .f32⟩ : BufTy).Contents (Elt Ideal)) :
    (TRef.of (T := ⟨S100000, .f32⟩) main_v56 p1 p2 p3).toBuf v = v := rfl
private theorem in_v87 (p1 p2 p3) (v : (⟨S100000x64, .f32⟩ : BufTy).Contents (Elt Ideal)) :
    (TRef.of (T := ⟨S100000x64, .f32⟩) main_v87 p1 p2 p3).ofBuf v = v := rfl
private theorem out_v88 (p1 p2 p3) (v : (⟨S100000x64, .f32⟩ : BufTy).Contents (Elt Ideal)) :
    (TRef.of (T := ⟨S100000x64, .f32⟩) main_v88 p1 p2 p3).toBuf v = v := rfl

/-! ## One piece at a time, from any contents W -/

section Pieces

variable (W : Valuation τ sig (Elt Ideal))

/-- Piece 1 leaves the source vector: row 0 of the edge array followed by the node numbers, -/
private theorem p1_src : StableHlo.after (piece 0 8) W (Proc.devRef .tc main_v3) = Gcn.Graph.srcVec (W (Proc.devRef .tc main_arg1)) := by
  open_piece; after_results; rfl
/-- the target vector: row 1 followed by the node numbers, -/
private theorem p1_dst : StableHlo.after (piece 0 8) W (Proc.devRef .tc main_v6) = Gcn.Graph.dstVec (W (Proc.devRef .tc main_arg1)) := by
  open_piece; after_results; rfl
/-- and x · W1. -/
private theorem p1_proj : StableHlo.after (piece 0 8) W (Proc.devRef .tc main_v7)
    = RefHost.proj1 (F := Ideal) (W (Proc.devRef .tc main_arg0)) (W (Proc.devRef .tc main_arg2)) := by
  open_piece; after_results; rfl
set_option maxHeartbeats 4000000 in
private theorem p1_keeps : StableHlo.after (piece 0 8) W (Proc.devRef .tc main_arg3) = W (Proc.devRef .tc main_arg3)
    ∧ StableHlo.after (piece 0 8) W (Proc.devRef .tc main_arg4) = W (Proc.devRef .tc main_arg4)
    ∧ StableHlo.after (piece 0 8) W (Proc.devRef .tc main_arg5) = W (Proc.devRef .tc main_arg5) := by
  refine ⟨?_, ?_, ?_⟩ <;> (open_piece; after_results)

/-- Piece 2 leaves, node by node, 1/√degree where the degree is positive and 0 elsewhere. -/
private theorem p2_inv : StableHlo.after (piece 8 14) W (Proc.devRef .tc main_v15) = Gcn.Graph.invSqrt (F := Ideal) (W (Proc.devRef .tc main_v6)) := by
  open_piece; after_results
  simp only [ofBuf_toBuf]
  rw [in_v13, in_v14, in_cst_2, out_v15]
  rfl
set_option maxHeartbeats 4000000 in
private theorem p2_keeps : StableHlo.after (piece 8 14) W (Proc.devRef .tc main_v3) = W (Proc.devRef .tc main_v3)
    ∧ StableHlo.after (piece 8 14) W (Proc.devRef .tc main_v6) = W (Proc.devRef .tc main_v6)
    ∧ StableHlo.after (piece 8 14) W (Proc.devRef .tc main_v7) = W (Proc.devRef .tc main_v7)
    ∧ StableHlo.after (piece 8 14) W (Proc.devRef .tc main_arg3) = W (Proc.devRef .tc main_arg3)
    ∧ StableHlo.after (piece 8 14) W (Proc.devRef .tc main_arg4) = W (Proc.devRef .tc main_arg4)
    ∧ StableHlo.after (piece 8 14) W (Proc.devRef .tc main_arg5) = W (Proc.devRef .tc main_arg5) := by
  refine ⟨?_, ?_, ?_, ?_, ?_, ?_⟩ <;> (open_piece; after_results)

/-- Piece 3 normalises the two index vectors, gathers the selected values at each, and multiplies. -/
private theorem p3_coef (E : IVec Gcn.Graph.SEdges 32)
    (hsrc : W (Proc.devRef .tc main_v3) = Gcn.Graph.srcVec E) (hdst : W (Proc.devRef .tc main_v6) = Gcn.Graph.dstVec E)
    (hinv : W (Proc.devRef .tc main_v15) = Gcn.Graph.invSqrt (F := Ideal) (Gcn.Graph.dstVec E)) :
    StableHlo.after (piece 22 19) W (Proc.devRef .tc main_v30) = Gcn.Graph.coefVec (F := Ideal) E := by
  open_piece; after_results_simp
  rw [hsrc, hdst, hinv]
  rfl
set_option maxHeartbeats 4000000 in
private theorem p3_keeps : StableHlo.after (piece 22 19) W (Proc.devRef .tc main_v3) = W (Proc.devRef .tc main_v3)
    ∧ StableHlo.after (piece 22 19) W (Proc.devRef .tc main_v6) = W (Proc.devRef .tc main_v6)
    ∧ StableHlo.after (piece 22 19) W (Proc.devRef .tc main_v7) = W (Proc.devRef .tc main_v7)
    ∧ StableHlo.after (piece 22 19) W (Proc.devRef .tc main_arg3) = W (Proc.devRef .tc main_arg3)
    ∧ StableHlo.after (piece 22 19) W (Proc.devRef .tc main_arg4) = W (Proc.devRef .tc main_arg4)
    ∧ StableHlo.after (piece 22 19) W (Proc.devRef .tc main_arg5) = W (Proc.devRef .tc main_arg5) := by
  refine ⟨?_, ?_, ?_, ?_, ?_, ?_⟩ <;> (open_piece; after_results)

/-- Piece 4 is the first aggregation. -/
private theorem p4_agg : StableHlo.after (piece 41 16) W (Proc.devRef .tc main_v43)
    = RefHost.agg16 (F := Ideal) (Gcn.Graph.col (Gcn.Graph.normalise (W (Proc.devRef .tc main_v3)))) (Gcn.Graph.col (W (Proc.devRef .tc main_v6)))
        (W (Proc.devRef .tc main_v30)) (W (Proc.devRef .tc main_v7)) := by
  open_piece; after_results_simp
  rfl
set_option maxHeartbeats 4000000 in
private theorem p4_keeps : StableHlo.after (piece 41 16) W (Proc.devRef .tc main_v3) = W (Proc.devRef .tc main_v3)
    ∧ StableHlo.after (piece 41 16) W (Proc.devRef .tc main_v6) = W (Proc.devRef .tc main_v6)
    ∧ StableHlo.after (piece 41 16) W (Proc.devRef .tc main_arg3) = W (Proc.devRef .tc main_arg3)
    ∧ StableHlo.after (piece 41 16) W (Proc.devRef .tc main_arg4) = W (Proc.devRef .tc main_arg4)
    ∧ StableHlo.after (piece 41 16) W (Proc.devRef .tc main_arg5) = W (Proc.devRef .tc main_arg5) := by
  refine ⟨?_, ?_, ?_, ?_, ?_⟩ <;> (open_piece; after_results)

/-- Piece 5 adds the first bias, clips at zero and multiplies by W2. -/
private theorem p5_hidden : StableHlo.after (piece 57 7) W (Proc.devRef .tc main_v48)
    = RefHost.proj2 (F := Ideal) (RefHost.biasRelu (F := Ideal) (W (Proc.devRef .tc main_v43)) (W (Proc.devRef .tc main_arg3))) (W (Proc.devRef .tc main_arg4)) := by
  open_piece; after_results
  simp only [ofBuf_toBuf]
  rw [in_v46, out_v47]
  rfl
set_option maxHeartbeats 4000000 in
private theorem p5_keeps : StableHlo.after (piece 57 7) W (Proc.devRef .tc main_v3) = W (Proc.devRef .tc main_v3)
    ∧ StableHlo.after (piece 57 7) W (Proc.devRef .tc main_v6) = W (Proc.devRef .tc main_v6)
    ∧ StableHlo.after (piece 57 7) W (Proc.devRef .tc main_arg5) = W (Proc.devRef .tc main_arg5) := by
  refine ⟨?_, ?_, ?_⟩ <;> (open_piece; after_results)

/-- Piece 6 computes the inverse square roots of the degrees again. -/
private theorem p6_inv : StableHlo.after (piece 64 14) W (Proc.devRef .tc main_v56) = Gcn.Graph.invSqrt (F := Ideal) (W (Proc.devRef .tc main_v6)) := by
  open_piece; after_results
  simp only [ofBuf_toBuf]
  rw [in_v54, in_v55, in_cst_12, out_v56]
  rfl
set_option maxHeartbeats 4000000 in
private theorem p6_keeps : StableHlo.after (piece 64 14) W (Proc.devRef .tc main_v3) = W (Proc.devRef .tc main_v3)
    ∧ StableHlo.after (piece 64 14) W (Proc.devRef .tc main_v6) = W (Proc.devRef .tc main_v6)
    ∧ StableHlo.after (piece 64 14) W (Proc.devRef .tc main_v48) = W (Proc.devRef .tc main_v48)
    ∧ StableHlo.after (piece 64 14) W (Proc.devRef .tc main_arg5) = W (Proc.devRef .tc main_arg5) := by
  refine ⟨?_, ?_, ?_, ?_⟩ <;> (open_piece; after_results)

/-- Piece 7 computes the coefficients again: the same function of the edge array. -/
private theorem p7_coef (E : IVec Gcn.Graph.SEdges 32)
    (hsrc : W (Proc.devRef .tc main_v3) = Gcn.Graph.srcVec E) (hdst : W (Proc.devRef .tc main_v6) = Gcn.Graph.dstVec E)
    (hinv : W (Proc.devRef .tc main_v56) = Gcn.Graph.invSqrt (F := Ideal) (Gcn.Graph.dstVec E)) :
    StableHlo.after (piece 78 19) W (Proc.devRef .tc main_v71) = Gcn.Graph.coefVec (F := Ideal) E := by
  open_piece; after_results_simp
  rw [hsrc, hdst, hinv]
  rfl
set_option maxHeartbeats 4000000 in
private theorem p7_keeps : StableHlo.after (piece 78 19) W (Proc.devRef .tc main_v3) = W (Proc.devRef .tc main_v3)
    ∧ StableHlo.after (piece 78 19) W (Proc.devRef .tc main_v6) = W (Proc.devRef .tc main_v6)
    ∧ StableHlo.after (piece 78 19) W (Proc.devRef .tc main_v48) = W (Proc.devRef .tc main_v48)
    ∧ StableHlo.after (piece 78 19) W (Proc.devRef .tc main_arg5) = W (Proc.devRef .tc main_arg5) := by
  refine ⟨?_, ?_, ?_, ?_⟩ <;> (open_piece; after_results)

/-- Piece 8 is the second aggregation. -/
private theorem p8_agg : StableHlo.after (piece 97 16) W (Proc.devRef .tc main_v84)
    = RefHost.agg64 (F := Ideal) (Gcn.Graph.col (Gcn.Graph.normalise (W (Proc.devRef .tc main_v3)))) (Gcn.Graph.col (W (Proc.devRef .tc main_v6)))
        (W (Proc.devRef .tc main_v71)) (W (Proc.devRef .tc main_v48)) := by
  open_piece; after_results_simp
  rfl
set_option maxHeartbeats 4000000 in
private theorem p8_keeps : StableHlo.after (piece 97 16) W (Proc.devRef .tc main_arg5) = W (Proc.devRef .tc main_arg5) := by
  open_piece; after_results

/-- Piece 9 adds the second bias. -/
private theorem p9_bias : StableHlo.after (piece 113 3) W (Proc.devRef .tc main_v87)
    = RefHost.bias2 (F := Ideal) (W (Proc.devRef .tc main_v84)) (W (Proc.devRef .tc main_arg5)) := by
  open_piece; after_results; rfl

set_option maxHeartbeats 4000000 in
/-- Piece 10 is the row-wise log-softmax. -/
private theorem p10_logSoftmax : StableHlo.after (piece 116 15) W (Proc.devRef .tc main_v88)
    = RefHost.logSoftmax (F := Ideal) (W (Proc.devRef .tc main_v87)) := by
  open_piece; after_results_simp
  simp only [ofBuf_toBuf]
  rw [out_v88]
  simp only [in_v87]
  rfl

end Pieces

/-! ## The pieces in a row -/

/-- The fold of the whole operation list at the result buffer, from any buffer contents. -/
theorem fold_result (W : Valuation τ sig (Elt Ideal)) :
    StableHlo.after (Cert.ReferenceIdeal.ValueP.ops (F := Ideal)) W (Proc.devRef .tc main_v88)
      = RefHost.result (F := Ideal) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [cut_all]
  simp only [StableHlo.after_append]
  -- the contents at the nine cuts
  generalize h1 : StableHlo.after (piece 0 8) W = W1
  generalize h2 : StableHlo.after (piece 8 14) W1 = W2
  generalize h3 : StableHlo.after (piece 22 19) W2 = W3
  generalize h4 : StableHlo.after (piece 41 16) W3 = W4
  generalize h5 : StableHlo.after (piece 57 7) W4 = W5
  generalize h6 : StableHlo.after (piece 64 14) W5 = W6
  generalize h7 : StableHlo.after (piece 78 19) W6 = W7
  generalize h8 : StableHlo.after (piece 97 16) W7 = W8
  generalize h9 : StableHlo.after (piece 113 3) W8 = W9
  -- after piece 1: the index vectors, x · W1, and the arguments still to be read
  have s1 : W1 (Proc.devRef .tc main_v3) = Gcn.Graph.srcVec (W (Proc.devRef .tc main_arg1)) := by rw [← h1]; exact p1_src W
  have d1 : W1 (Proc.devRef .tc main_v6) = Gcn.Graph.dstVec (W (Proc.devRef .tc main_arg1)) := by rw [← h1]; exact p1_dst W
  have m1 : W1 (Proc.devRef .tc main_v7) = RefHost.proj1 (F := Ideal) (W (Proc.devRef .tc main_arg0)) (W (Proc.devRef .tc main_arg2)) := by rw [← h1]; exact p1_proj W
  obtain ⟨b1, e1, f1⟩ := p1_keeps W
  rw [h1] at b1 e1 f1
  -- after piece 2: the inverse square roots of the degrees
  have i2 : W2 (Proc.devRef .tc main_v15) = Gcn.Graph.invSqrt (F := Ideal) (Gcn.Graph.dstVec (W (Proc.devRef .tc main_arg1))) := by
    rw [← h2, p2_inv W1, d1]
  obtain ⟨s2, d2, m2, b2, e2, f2⟩ := p2_keeps W1
  rw [h2] at s2 d2 m2 b2 e2 f2
  -- after piece 3: the coefficients
  have c3 : W3 (Proc.devRef .tc main_v30) = Gcn.Graph.coefVec (F := Ideal) (W (Proc.devRef .tc main_arg1)) := by
    rw [← h3]; exact p3_coef W2 _ (s2.trans s1) (d2.trans d1) i2
  obtain ⟨s3, d3, m3, b3, e3, f3⟩ := p3_keeps W2
  rw [h3] at s3 d3 m3 b3 e3 f3
  -- after piece 4: the first aggregation
  have a4 : W4 (Proc.devRef .tc main_v43) = RefHost.agg16 (F := Ideal) (Gcn.Graph.srcCol (W (Proc.devRef .tc main_arg1))) (Gcn.Graph.dstCol (W (Proc.devRef .tc main_arg1)))
      (Gcn.Graph.coefVec (F := Ideal) (W (Proc.devRef .tc main_arg1))) (RefHost.proj1 (F := Ideal) (W (Proc.devRef .tc main_arg0)) (W (Proc.devRef .tc main_arg2))) := by
    rw [← h4, p4_agg W3, s3.trans (s2.trans s1), d3.trans (d2.trans d1), c3, m3.trans (m2.trans m1)]
    rfl
  obtain ⟨s4, d4, b4, e4, f4⟩ := p4_keeps W3
  rw [h4] at s4 d4 b4 e4 f4
  -- after piece 5: the hidden layer times W2
  have g5 : W5 (Proc.devRef .tc main_v48) = RefHost.proj2 (F := Ideal) (RefHost.biasRelu (F := Ideal) (RefHost.agg16 (F := Ideal) (Gcn.Graph.srcCol (W (Proc.devRef .tc main_arg1))) (Gcn.Graph.dstCol (W (Proc.devRef .tc main_arg1)))
      (Gcn.Graph.coefVec (F := Ideal) (W (Proc.devRef .tc main_arg1))) (RefHost.proj1 (F := Ideal) (W (Proc.devRef .tc main_arg0)) (W (Proc.devRef .tc main_arg2)))) (W (Proc.devRef .tc main_arg3))) (W (Proc.devRef .tc main_arg4)) := by
    rw [← h5, p5_hidden W4, a4, b4.trans (b3.trans (b2.trans b1)), e4.trans (e3.trans (e2.trans e1))]
  obtain ⟨s5, d5, f5⟩ := p5_keeps W4
  rw [h5] at s5 d5 f5
  have sE : W5 (Proc.devRef .tc main_v3) = Gcn.Graph.srcVec (W (Proc.devRef .tc main_arg1)) := s5.trans (s4.trans (s3.trans (s2.trans s1)))
  have dE : W5 (Proc.devRef .tc main_v6) = Gcn.Graph.dstVec (W (Proc.devRef .tc main_arg1)) := d5.trans (d4.trans (d3.trans (d2.trans d1)))
  have fE : W5 (Proc.devRef .tc main_arg5) = W (Proc.devRef .tc main_arg5) := f5.trans (f4.trans (f3.trans (f2.trans f1)))
  -- after piece 6: the inverse square roots again
  have i6 : W6 (Proc.devRef .tc main_v56) = Gcn.Graph.invSqrt (F := Ideal) (Gcn.Graph.dstVec (W (Proc.devRef .tc main_arg1))) := by
    rw [← h6, p6_inv W5, dE]
  obtain ⟨s6, d6, g6, f6⟩ := p6_keeps W5
  rw [h6] at s6 d6 g6 f6
  -- after piece 7: the coefficients again
  have c7 : W7 (Proc.devRef .tc main_v71) = Gcn.Graph.coefVec (F := Ideal) (W (Proc.devRef .tc main_arg1)) := by
    rw [← h7]; exact p7_coef W6 _ (s6.trans sE) (d6.trans dE) i6
  obtain ⟨s7, d7, g7, f7⟩ := p7_keeps W6
  rw [h7] at s7 d7 g7 f7
  -- after piece 8: the second aggregation
  have a8 : W8 (Proc.devRef .tc main_v84) = RefHost.agg64 (F := Ideal) (Gcn.Graph.srcCol (W (Proc.devRef .tc main_arg1))) (Gcn.Graph.dstCol (W (Proc.devRef .tc main_arg1)))
      (Gcn.Graph.coefVec (F := Ideal) (W (Proc.devRef .tc main_arg1))) (W5 (Proc.devRef .tc main_v48)) := by
    rw [← h8, p8_agg W7, s7.trans (s6.trans sE), d7.trans (d6.trans dE), c7, g7.trans g6]
    rfl
  have f8 : W8 (Proc.devRef .tc main_arg5) = W7 (Proc.devRef .tc main_arg5) := by rw [← h8]; exact p8_keeps W7
  -- after piece 9: the second bias
  have z9 : W9 (Proc.devRef .tc main_v87) = RefHost.bias2 (F := Ideal) (W8 (Proc.devRef .tc main_v84)) (W (Proc.devRef .tc main_arg5)) := by
    rw [← h9, p9_bias W8, f8.trans (f7.trans (f6.trans fE))]
  -- piece 10: the log-softmax
  rw [p10_logSoftmax W9, z9, a8, g5]
  rfl

end Cert.ReferenceIdeal.RefChain

end
-- ==== Proof.RefHostRead.lean ====
/-
  The reference's layers read entry by entry over the extended reals: each named whole-array function is the
  specification's.
-/
import proofs.«416209_j77369540870238_3_alg».proof.Proof.RefHost
import proofs.«416209_j77369540870238_3_alg».proof.Proof.Spec
import proofs.«416209_j77369540870238_3_alg».proof.Proof.AggRead
import proofs.«416209_j77369540870238_3_alg».proof.Proof.LibRowLayers
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.ReferenceIdeal.RefHost

open Cert.ReferenceIdeal Cert.ReferenceIdeal.Gen Idealize.ShloMosaic Idealize.ShloMosaic.ValueIdx

/-! ## The aggregations -/

/-- The aggregation of a matrix with 16 columns is the specification's. -/
private theorem agg16_eq (Isrc Idst : IVec S3300000x1 32) (coef : FVec Ideal S3300000 .f32) (h : FVec Ideal S100000x16 .f32) :
    agg16 (F := Ideal) Isrc Idst coef h = Gcn.agg Isrc Idst coef h :=
  Gcn.aggOps_eq scatter_S100000x16_S3300000x1_S3300000x16_1_0_0_1 rfl rfl rfl rfl
    gather_S100000x16_S3300000x1_S3300000x16_1_0_n_n_0_1_116 rfl rfl rfl rfl rfl rfl rfl
    bcast_S_S100000x16 bcast_S3300000_S3300000x1_0 bcast_S3300000x1_S3300000x16_0_1 _ _ coef h

/-- So is that of a matrix with 64 columns. -/
private theorem agg64_eq (Isrc Idst : IVec S3300000x1 32) (coef : FVec Ideal S3300000 .f32) (h : FVec Ideal S100000x64 .f32) :
    agg64 (F := Ideal) Isrc Idst coef h = Gcn.agg Isrc Idst coef h :=
  Gcn.aggOps_eq scatter_S100000x64_S3300000x1_S3300000x64_1_0_0_1 rfl rfl rfl rfl
    gather_S100000x64_S3300000x1_S3300000x64_1_0_n_n_0_1_164 rfl rfl rfl rfl rfl rfl rfl
    bcast_S_S100000x64 bcast_S3300000_S3300000x1_0 bcast_S3300000x1_S3300000x64_0_1 _ _ coef h

/-! ## The projections -/

/-- The first projection, entry by entry: row p of x against column q of W1. -/
private theorem proj1_eq (x : FVec Ideal S100000x512 .f32) (w : FVec Ideal S512x16 .f32) :
    proj1 (F := Ideal) x w = Gcn.mm x w := by
  funext i
  obtain ⟨p, q, rfl⟩ : ∃ (p : Fin 100000) (q : Fin 16), i = ix2 p q := ⟨i 0, i 1, eq_ix2 i⟩
  rw [Gcn.mm_apply]
  exact StackMember.dotGeneral_plain_apply none x w p q

/-- The second projection, entry by entry: row p of H against column q of W2. -/
private theorem proj2_eq (h : FVec Ideal S100000x16 .f32) (w : FVec Ideal S16x64 .f32) :
    proj2 (F := Ideal) h w = Gcn.mm h w := by
  funext i
  obtain ⟨p, q, rfl⟩ : ∃ (p : Fin 100000) (q : Fin 64), i = ix2 p q := ⟨i 0, i 1, eq_ix2 i⟩
  rw [Gcn.mm_apply]
  exact StackMember.dotGeneral_plain_apply none h w p q

/-! ## The biases -/

/-- The first bias made a row, repeated down the rows and added, then the larger of each entry and the zero spread
    over the matrix. -/
private theorem biasRelu_eq (a : FVec Ideal S100000x16 .f32) (b : FVec Ideal S16 .f32) :
    biasRelu (F := Ideal) a b = Gcn.relu (Gcn.addRow a b) := by
  funext i
  obtain ⟨p, q, rfl⟩ : ∃ (p : Fin 100000) (q : Fin 16), i = ix2 p q := ⟨i 0, i 1, eq_ix2 i⟩
  unfold biasRelu
  rw [maximumf_apply, addf_apply, RowLayers.rowDown_apply, RowLayers.rowBroadcast_apply, RowLayers.scalarBroadcast_apply,
    Ideal.ofBits_zero_f32]
  rfl

/-- The second bias made a row, repeated down the rows and added. -/
private theorem bias2_eq (a : FVec Ideal S100000x64 .f32) (b : FVec Ideal S64 .f32) :
    bias2 (F := Ideal) a b = Gcn.addRow a b := by
  funext i
  obtain ⟨p, q, rfl⟩ : ∃ (p : Fin 100000) (q : Fin 64), i = ix2 p q := ⟨i 0, i 1, eq_ix2 i⟩
  unfold bias2
  rw [addf_apply, RowLayers.rowDown_apply, RowLayers.rowBroadcast_apply]
  rfl

/-! ## The log-softmax -/

/-- The largest entry of row p: the reduction along the columns from minus infinity, then the larger of it and minus
    infinity again, which changes nothing. -/
private theorem hostRowMax_apply (z : FVec Ideal S100000x64 .f32) (p : Fin 100000) :
    maximumf (broadcastInDim S100000 ![] bcast_S_S100000 (constant (F := Ideal) S_ .f32 0xFF800000#32))
        (Host.reduce FloatOps.maximumf z (constant (F := Ideal) S_ .f32 0xFF800000#32) reducesTo_S100000x64_S100000_d1 h_S_) (ix1 p)
      = Gcn.rowMax z p := by
  have hred : S100000x64.Reduces [1] S100000 := by decide
  have hbot : Ideal.ofBits .f32 0xFF800000#32 = (⊥ : EReal) := by simp [Ideal.ofBits, Ideal.ieee]
  rw [maximumf_apply, RowLayers.scalarBroadcast_apply,
    Host.reduce_eq_fold_single FloatOps.maximumf z _ reducesTo_S100000x64_S100000_d1 hred h_S_]
  show max (Ideal.ofBits .f32 0xFF800000#32)
      ((Finset.univ : Finset (Fin 64)).fold max (Ideal.ofBits .f32 0xFF800000#32) (fun c => z (hred.lift (ix1 p) c))) = _
  rw [hbot, max_bot_left]
  unfold Gcn.rowMax
  refine Finset.fold_congr fun c _ => ?_
  rw [RowLayers.lift_cols]; rfl

/-- Each row less its maximum, entry by entry. -/
private theorem shifted_apply (z : FVec Ideal S100000x64 .f32) (p : Fin 100000) (q : Fin 64) :
    shifted (F := Ideal) z (ix2 p q) = z (ix2 p q) - Gcn.rowMax z p := by
  unfold shifted
  rw [subf_apply, RowLayers.columnAcross_apply, RowLayers.columnBroadcast_apply, hostRowMax_apply]

/-- The host's logarithm and exponential, entry by entry. -/
private theorem hostLog_apply {s : Shape} {φ : FTy} (a : FVec Ideal s φ) (i : s.Idx) : Host.log a i = Ideal.log (a i) := rfl
private theorem hostExp_apply {s : Shape} {φ : FTy} (a : FVec Ideal s φ) (i : s.Idx) : Host.exp a i = Ideal.exp (a i) := rfl

/-- The host's sum of row p from the zero scalar. -/
private theorem hostRowSum_apply (y : FVec Ideal S100000x64 .f32) (p : Fin 100000) :
    Host.reduceAdd y (constant (F := Ideal) S_ .f32 0x00000000#32) reducesTo_S100000x64_S100000_d1 h_S_ (ix1 p)
      = ∑ q : Fin 64, y (ix2 p q) := by
  have hred : S100000x64.Reduces [1] S100000 := by decide
  simp only [Host.reduceAdd, Ideal.hostReduceAdd_def]
  rw [Ideal.hostReduceAdd_single reducesTo_S100000x64_S100000_d1 hred]
  show Ideal.ofBits .f32 0x00000000#32 + _ = _
  rw [Ideal.ofBits_zero_f32, zero_add]
  refine Finset.sum_congr rfl fun c _ => ?_
  rw [RowLayers.lift_cols]; rfl

/-- The shifted rows less the logarithm of each row's sum of exponentials. -/
private theorem logSoftmax_eq (z : FVec Ideal S100000x64 .f32) : logSoftmax (F := Ideal) z = Gcn.logSoftmaxRows z := by
  funext i
  obtain ⟨p, q, rfl⟩ : ∃ (p : Fin 100000) (q : Fin 64), i = ix2 p q := ⟨i 0, i 1, eq_ix2 i⟩
  unfold logSoftmax
  rw [Gcn.logSoftmaxRows_apply, subf_apply, shifted_apply, RowLayers.columnAcross_apply, hostLog_apply,
    RowLayers.columnBroadcast_apply, hostRowSum_apply]
  refine congrArg (fun s => _ - Ideal.log s) (Finset.sum_congr rfl fun c _ => ?_)
  rw [hostExp_apply, shifted_apply]

/-- The reference's result is the output with the second aggregation done after the projection, over the hidden layer. -/
theorem result_eq (x0 : FVec Ideal S100000x512 .f32) (x1 : IVec S2x3200000 32) (x2 : FVec Ideal S512x16 .f32)
    (x3 : FVec Ideal S16 .f32) (x4 : FVec Ideal S16x64 .f32) (x5 : FVec Ideal S64 .f32) :
    result (F := Ideal) x0 x1 x2 x3 x4 x5
      = Gcn.outAggLast (Gcn.Graph.srcCol x1) (Gcn.Graph.dstCol x1) (Gcn.Graph.coefVec (F := Ideal) x1)
          (Gcn.hidden (Gcn.Graph.srcCol x1) (Gcn.Graph.dstCol x1) (Gcn.Graph.coefVec (F := Ideal) x1) x0 x2 x3) x4 x5 := by
  unfold result Gcn.outAggLast Gcn.hidden
  rw [logSoftmax_eq, bias2_eq, agg64_eq, proj2_eq, biasRelu_eq, agg16_eq, proj1_eq]

end Cert.ReferenceIdeal.RefHost

end
-- ==== Proof.RefValue.lean ====
/-
  The idealized reference's run with its result named: every execution ends with the result buffer at the output with
  the second aggregation done after the projection, over the hidden layer, and the arguments unchanged.
-/
import proofs.«416209_j77369540870238_3_alg».proof.Proof.RefRun
import proofs.«416209_j77369540870238_3_alg».proof.Proof.RefChain
import proofs.«416209_j77369540870238_3_alg».proof.Proof.RefHostRead

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

/-- The reference's result as a function of its six arguments. -/
def out (x0 : Gcn.Mat 100000 512) (x1 : IVec Gcn.Graph.SEdges 32) (x2 : Gcn.Mat 512 16) (x3 : Gcn.Vc 16) (x4 : Gcn.Mat 16 64)
    (x5 : Gcn.Vc 64) : Gcn.Mat 100000 64 :=
  Gcn.outAggLast (Gcn.Graph.srcCol x1) (Gcn.Graph.dstCol x1) (Gcn.Graph.coefVec (F := Ideal) x1)
    (Gcn.hidden (Gcn.Graph.srcCol x1) (Gcn.Graph.dstCol x1) (Gcn.Graph.coefVec (F := Ideal) x1) x0 x2 x3) x4 x5

/-- The run, read. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((RefChain.fold_result (launchContents m c)).trans (RefHost.result_eq _ _ _ _ _ _)), (h c).2⟩)
    (Cert.ReferenceIdeal.ValueP.run (F := Ideal) m ρ)

end Cert.ReferenceIdeal.RefValue

end
-- ==== Proof.LibFiniteReal.lean ====
/-
  Finite extended reals, and the law that lets a weighted sum of rows change places with a matrix product.

  An extended real is FINITE when it is a real number. Finite values are closed under the operations used here, and for
  finite entries  ∑ₖ (∑ₑ a e k · c e) · w k  =  ∑ₑ (∑ₖ a e k · w k) · c e : both are the double sum of a e k · c e · w k.
  Over the extended reals the law needs finiteness: multiplication does not distribute over a sum of opposite infinities.
-/
import Idealize.ShloMosaic.PureOps.Ideal

noncomputable section

open scoped BigOperators

namespace FiniteReal

/-- x is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem isReal_sum {ι : Type} (S : Finset ι) (f : ι → EReal) (hf : ∀ i ∈ S, IsReal (f i)) : IsReal (∑ i ∈ S, f i) := by
  classical
  induction S using Finset.induction_on with
  | empty => simpa using isReal_zero
  | insert i s hi ih =>
    rw [Finset.sum_insert hi]
    exact (hf i (Finset.mem_insert_self i s)).add (ih (fun j hj => hf j (Finset.mem_insert_of_mem hj)))
/-- The number of elements of a finite set, as a sum of ones. -/
theorem sum_one_eq_card {ι : Type} (S : Finset ι) : (∑ _i ∈ S, (1 : EReal)) = ((S.card : ℝ) : EReal) := by
  classical
  induction S using Finset.induction_on with
  | empty => simp
  | insert i s hi ih =>
    rw [Finset.sum_insert hi, ih, Finset.card_insert_of_notMem hi, Nat.cast_add, Nat.cast_one, EReal.coe_add,
      EReal.coe_one, add_comm]

/-- The reciprocal square root of a positive real number is a real number. -/
theorem isReal_rsqrt_of_pos {r : ℝ} (hr : 0 < r) : IsReal (Idealize.ShloMosaic.Ideal.rsqrt (r : EReal)) := by
  refine ⟨(Real.sqrt r)⁻¹, ?_⟩
  rw [Idealize.ShloMosaic.Ideal.rsqrt_coe, if_neg (not_lt.mpr hr.le), if_neg hr.ne']

/-- A real number read back from its extended-real form. -/
private theorem IsReal.coe_toReal {x : EReal} (hx : IsReal x) : ((x.toReal : ℝ) : EReal) = x := by
  obtain ⟨r, rfl⟩ := hx
  rw [EReal.toReal_coe]

/-- The inclusion of the reals in the extended reals carries finite sums to finite sums. -/
private theorem coe_sum {ι : Type} (S : Finset ι) (f : ι → ℝ) :
    ((∑ i ∈ S, f i : ℝ) : EReal) = ∑ i ∈ S, (f i : EReal) := by
  classical
  induction S using Finset.induction_on with
  | empty => simp
  | insert i s hi ih => rw [Finset.sum_insert hi, Finset.sum_insert hi, EReal.coe_add, ih]

/-- A weighted sum of rows changes places with a product by a matrix column, for finite entries. -/
theorem sum_weighted_rows_mul {ι κ : Type} [Fintype κ] (S : Finset ι) (a : ι → κ → EReal) (c : ι → EReal) (w : κ → EReal)
    (ha : ∀ e ∈ S, ∀ k, IsReal (a e k)) (hc : ∀ e ∈ S, IsReal (c e)) (hw : ∀ k, IsReal (w k)) :
    ∑ k, (∑ e ∈ S, a e k * c e) * w k = ∑ e ∈ S, (∑ k, a e k * w k) * c e := by
  -- both sides are the inclusion of a real double sum
  have hL : ∑ k, (∑ e ∈ S, a e k * c e) * w k
      = ((∑ k, (∑ e ∈ S, (a e k).toReal * (c e).toReal) * (w k).toReal : ℝ) : EReal) := by
    rw [coe_sum]
    refine Finset.sum_congr rfl (fun k _ => ?_)
    rw [EReal.coe_mul, coe_sum, (hw k).coe_toReal]
    congr 1
    refine Finset.sum_congr rfl (fun e he => ?_)
    rw [EReal.coe_mul, (ha e he k).coe_toReal, (hc e he).coe_toReal]
  have hR : ∑ e ∈ S, (∑ k, a e k * w k) * c e
      = ((∑ e ∈ S, (∑ k, (a e k).toReal * (w k).toReal) * (c e).toReal : ℝ) : EReal) := by
    rw [coe_sum]
    refine Finset.sum_congr rfl (fun e he => ?_)
    rw [EReal.coe_mul, coe_sum, (hc e he).coe_toReal]
    congr 1
    refine Finset.sum_congr rfl (fun k _ => ?_)
    rw [EReal.coe_mul, (ha e he k).coe_toReal, (hw k).coe_toReal]
  rw [hL, hR]
  congr 1
  -- in the reals: both are the double sum of a e k · c e · w k
  simp only [Finset.sum_mul]
  rw [Finset.sum_comm]
  refine Finset.sum_congr rfl (fun e _ => Finset.sum_congr rfl (fun k _ => ?_))
  ring

end FiniteReal

end
-- ==== Proof.Linearity.lean ====
/-
  Aggregation and projection change places.

  With H, W2 and the coefficients finite, (Â H) W2 = Â (H W2) entry by entry: both are the double sum over the edges
  into a node and over the hidden coordinates of  H[src e, k] · coef e · W2[k, c].  The hidden layer itself is finite when
  the inputs and the coefficients are: every step is a finite sum of products, a sum with a bias, or a maximum with zero.
-/
import proofs.«416209_j77369540870238_3_alg».proof.Proof.Spec
import proofs.«416209_j77369540870238_3_alg».proof.Proof.LibFiniteReal

noncomputable section

open scoped BigOperators

namespace Gcn

open Idealize.ShloMosaic Idealize.ShloMosaic.ValueIdx FiniteReal

/-- The hidden layer holds real numbers when the inputs and the coefficients do. -/
theorem hidden_isReal (Isrc Idst : EdgeCol) (coef : Vc 3300000) (X : Mat 100000 512) (W1 : Mat 512 16) (b1 : Vc 16)
    (hc : ∀ e : Fin 3300000, IsReal (coef (ix1 e))) (hX : ∀ i, IsReal (X i)) (hW : ∀ i, IsReal (W1 i))
    (hb : ∀ i, IsReal (b1 i)) (i : (⟨2, ![100000, 16]⟩ : Shape).Idx) : IsReal (hidden Isrc Idst coef X W1 b1 i) := by
  obtain ⟨n, c, rfl⟩ : ∃ (n : Fin 100000) (c : Fin 16), i = ix2 n c := ⟨i 0, i 1, eq_ix2 i⟩
  show IsReal (max (agg Isrc Idst coef (mm X W1) (ix2 n c) + b1 (ix1 c)) 0)
  refine IsReal.max (IsReal.add ?_ (hb _)) isReal_zero
  rw [agg_apply]
  refine isReal_sum _ _ fun e _ => IsReal.mul ?_ (hc e)
  rw [mm_apply]
  exact isReal_sum _ _ fun q _ => IsReal.mul (hX _) (hW _)

/-- The second layer may aggregate before it projects. -/
theorem outAggFirst_eq_outAggLast (Isrc Idst : EdgeCol) (coef : Vc 3300000) (H : Mat 100000 16) (W2 : Mat 16 64) (b2 : Vc 64)
    (hc : ∀ e : Fin 3300000, IsReal (coef (ix1 e))) (hH : ∀ i, IsReal (H i)) (hW : ∀ i, IsReal (W2 i)) :
    outAggFirst Isrc Idst coef H W2 b2 = outAggLast Isrc Idst coef H W2 b2 := by
  unfold outAggFirst outAggLast
  refine congrArg logSoftmaxRows (congrArg (fun Z => addRow Z b2) ?_)
  funext i
  obtain ⟨n, c, rfl⟩ : ∃ (n : Fin 100000) (c : Fin 64), i = ix2 n c := ⟨i 0, i 1, eq_ix2 i⟩
  rw [mm_apply, agg_apply]
  simp only [agg_apply, mm_apply]
  exact sum_weighted_rows_mul (incoming Idst n) (fun e k => H (ix2 (source Isrc e) k)) (fun e => coef (ix1 e))
    (fun k => W2 (ix2 k c)) (fun e _ k => hH _) (fun e _ => hc e) (fun k => hW _)

end Gcn

end
-- ==== Proof.CoefFinite.lean ====
/-
  Every edge's coefficient is a real number: a node's degree is a count, so where it is positive its reciprocal square
  root is real, and elsewhere zero stands in its place; a coefficient is a product of two such values.
-/
import proofs.«416209_j77369540870238_3_alg».proof.Proof.Spec
import proofs.«416209_j77369540870238_3_alg».proof.Proof.Graph
import proofs.«416209_j77369540870238_3_alg».proof.Proof.LibSegmentSum
import proofs.«416209_j77369540870238_3_alg».proof.Proof.LibFiniteReal
import proofs.«416209_j77369540870238_3_alg».proof.Proof.LibRowLayers
import Idealize.ShloMosaic.PureOps.Ideal.Laws
import Idealize.ShloMosaic.Lib.ValueIdx

noncomputable section

open scoped BigOperators

namespace Gcn

open Idealize.ShloMosaic Idealize.ShloMosaic.ValueIdx FiniteReal

/-- A comparison "greater than zero" that answers yes holds of a positive value. -/
private theorem pos_of_cmp_ogt_zero {x : EReal} (h : Ideal.cmp .ogt x 0 = 1#1) : 0 < x := by
  by_contra hn
  have h0 : Ideal.cmp .ogt x 0 = 0#1 := by simp [Ideal.cmp, hn]
  rw [h0] at h
  exact absurd h (by decide)

/-- The host's reciprocal square root at an index is the extended reals' of the element. -/
private theorem hostRsqrt_apply {s : Shape} {φ : FTy} (a : FVec Ideal s φ) (i : s.Idx) :
    Host.rsqrt a i = Ideal.rsqrt (a i) := rfl

/-- The degree of node n is the number of extended edges whose target is n. -/
private theorem degree_apply (dst : IVec Graph.SAll 32) (n : Fin 100000) :
    Graph.degree (F := Ideal) dst (ix1 n)
      = (((Finset.univ.filter
            (fun e : Fin 3300000 => (Graph.col dst (ix2 e (0 : Fin 1))).toInt = (n.val : Int))).card : ℝ) : EReal) := by
  unfold Graph.degree
  rw [SegmentSum.scatterAdd_vec_apply Graph.scatterNodes rfl rfl rfl rfl, RowLayers.scalarBroadcast_apply,
    Ideal.ofBits_zero_f32, zero_add, ← sum_one_eq_card]
  refine Finset.sum_congr rfl (fun e _ => ?_)
  rw [RowLayers.scalarBroadcast_apply, Ideal.ofBits_one_f32]

/-- 1/√degree, with 0 where the degree is not positive, is a real number at every node. -/
private theorem invSqrt_isReal (dst : IVec Graph.SAll 32) (n : Fin 100000) :
    IsReal (Graph.invSqrt (F := Ideal) dst (ix1 n)) := by
  unfold Graph.invSqrt
  rw [select_apply]
  unfold Scalar.select
  split
  · rename_i h
    rw [cmpf_apply, Ideal.cmpf_def, RowLayers.scalarBroadcast_apply, Ideal.ofBits_zero_f32, degree_apply] at h
    rw [hostRsqrt_apply, degree_apply]
    exact isReal_rsqrt_of_pos (EReal.coe_pos.mp (pos_of_cmp_ogt_zero h))
  · simp only [id_eq]
    rw [RowLayers.scalarBroadcast_apply, Ideal.ofBits_zero_f32]
    exact isReal_zero

/-- Every coefficient is a real number, whatever the edge array holds. -/
theorem coef_isReal (E : IVec Gcn.Graph.SEdges 32) (e : Fin 3300000) :
    IsReal (Gcn.Graph.coefVec (F := Ideal) E (ix1 e)) := by
  unfold Graph.coefVec
  rw [mulf_apply, SegmentSum.gather_vec_apply Graph.gatherNodes rfl rfl rfl rfl rfl rfl rfl (by decide),
    SegmentSum.gather_vec_apply Graph.gatherNodes rfl rfl rfl rfl rfl rfl rfl (by decide)]
  exact (invSqrt_isReal _ _).mul (invSqrt_isReal _ _)

end Gcn

end
-- ==== Proof.PreFinite.lean ====
/-
  From the precondition to finiteness: where every float input passes the test |x| < +inf entry by entry, every entry of
  every float input is a real number.
-/
import proofs.«416209_j77369540870238_3_alg».proof.Defs
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs

/-- The rank-0 shape has one index. -/
private instance subsingleton_S_ : Subsingleton S_.Idx := ⟨fun a b => funext fun d => d.elim0⟩

/-- An extended real whose absolute value max a (-a) is strictly below the pattern of +inf is a real number:
    at ⊥ and at ⊤ the absolute value is ⊤, which is not below ⊤. -/
private theorem real_of_abs_lt_inf (a : EReal)
    (e : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at e
  induction a using EReal.rec with
  | bot => simp [Ideal.cmp] at e
  | top => simp [Ideal.cmp] at e
  | coe r => exact ⟨r, rfl⟩

/-- One input's test, read: the conjunction over all entries of |x| < +inf being 1 makes every entry a real. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu
        ValueIdx.ix0 = 1#1) :
    ∀ i, ∃ r : ℝ, x i = (r : EReal) := by
  intro i
  have hi := Host.reduce_andi_all _ init hr hu ValueIdx.ix0 e i
  exact real_of_abs_lt_inf (x i) hi

/-- The precondition, read: each of the five float arrays holds real numbers only. -/
theorem finite_of_pre [hP : Cert.Pre_finite_inputs.Facts]
    (x0 : FVec Ideal S100000x512 .f32) (x1 : IVec S2x3200000 32) (x2 : FVec Ideal S512x16 .f32) (x3 : FVec Ideal S16 .f32)
    (x4 : FVec Ideal S16x64 .f32) (x5 : FVec Ideal S64 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ValueIdx.ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all x0 _ _ _ _ h1, real_of_all x2 _ _ _ _ h2, real_of_all x3 _ _ _ _ h3,
    real_of_all x4 _ _ _ _ h4, real_of_all x5 _ _ _ _ h5⟩

end Cert.PreFinite

end
-- ==== Proof.lean ====
/-
  Equivalence, over the extended reals, of a two-layer graph convolution kernel and its reference.

  The kernel computes  log_softmax((Â · relu(Â · (x W1) + b1)) W2 + b2)  and the reference
  log_softmax(Â · (relu(Â · (x W1) + b1) W2) + b2),  where Â gathers a row per edge (given edges and self-loops),
  scales it by the edge's coefficient 1/√(deg src · deg dst) and adds it into the target row. The two differ only in
  whether the second layer aggregates before or after its projection by W2. Aggregation is linear, and the two orders
  agree entry by entry once every quantity involved is a real number: the inputs are finite by the precondition, a
  degree is a count, so the coefficients are real, and the hidden layer is built from finite sums, products and maxima.

  The kernel's three pallas_calls are read block by block into whole-array functions (Region0/1/2), the host stretches
  between them into the aggregation (KernelGraph, KernelValue), the reference's host program likewise (RefChain,
  RefHostRead, RefValue); Linearity holds the law, CoefFinite and PreFinite the finiteness.
-/
import proofs.«416209_j77369540870238_3_alg».proof.Defs
import proofs.«416209_j77369540870238_3_alg».proof.Proof.Gen.Kernel
import proofs.«416209_j77369540870238_3_alg».proof.Proof.Gen.Kernel.Skeleton
import proofs.«416209_j77369540870238_3_alg».proof.Proof.Gen.Kernel.Launch
import proofs.«416209_j77369540870238_3_alg».proof.Proof.Gen.Kernel.Points
import proofs.«416209_j77369540870238_3_alg».proof.Proof.Gen.Kernel.Frame
import proofs.«416209_j77369540870238_3_alg».proof.Proof.Gen.KernelIdeal
import proofs.«416209_j77369540870238_3_alg».proof.Proof.Gen.KernelIdeal.Skeleton
import proofs.«416209_j77369540870238_3_alg».proof.Proof.Gen.KernelIdeal.Launch
import proofs.«416209_j77369540870238_3_alg».proof.Proof.Gen.KernelIdeal.Points
import proofs.«416209_j77369540870238_3_alg».proof.Proof.Gen.KernelIdeal.Frame
import proofs.«416209_j77369540870238_3_alg».proof.Proof.Gen.ReferenceIdeal
import proofs.«416209_j77369540870238_3_alg».proof.Proof.Gen.Pre_finite_inputs
import proofs.«416209_j77369540870238_3_alg».proof.Proof.RunMain
import proofs.«416209_j77369540870238_3_alg».proof.Proof.KernelValue
import proofs.«416209_j77369540870238_3_alg».proof.Proof.RefValue
import proofs.«416209_j77369540870238_3_alg».proof.Proof.Linearity
import proofs.«416209_j77369540870238_3_alg».proof.Proof.CoefFinite
import proofs.«416209_j77369540870238_3_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same result array: the kernel's is the output with the aggregation first, the
    reference's the output with the aggregation last, over the same hidden layer; for finite inputs the two agree. -/
theorem algebraic : Cert.algebraic_KernelIdeal_ReferenceIdeal := by
  intro m ρ m' ρ' hpre hagree
  refine ⟨fun c => Gcn.outAggFirst (Gcn.Graph.srcCol (m ((c.tc : Thread Cert.KernelIdeal.nD Cert.KernelIdeal.τ).loc Cert.KernelIdeal.main_arg1)))
      (Gcn.Graph.dstCol (m ((c.tc : Thread Cert.KernelIdeal.nD Cert.KernelIdeal.τ).loc Cert.KernelIdeal.main_arg1)))
      (Gcn.Graph.coefVec (F := Ideal) (m ((c.tc : Thread Cert.KernelIdeal.nD Cert.KernelIdeal.τ).loc Cert.KernelIdeal.main_arg1)))
      (Gcn.hidden (Gcn.Graph.srcCol (m ((c.tc : Thread Cert.KernelIdeal.nD Cert.KernelIdeal.τ).loc Cert.KernelIdeal.main_arg1)))
        (Gcn.Graph.dstCol (m ((c.tc : Thread Cert.KernelIdeal.nD Cert.KernelIdeal.τ).loc Cert.KernelIdeal.main_arg1)))
        (Gcn.Graph.coefVec (F := Ideal) (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.kernel_value m ρ c), (h c).2⟩)
      (Cert.KernelIdeal.GenP.run_main (F := Ideal) m ρ)
  · refine (θ_run Cert.ReferenceIdeal.defs _ _).mono (fun r h c => ⟨(h c).1.trans ?_, (h c).2⟩)
      (Cert.ReferenceIdeal.RefValue.run_value m' ρ')
    obtain ⟨e0, e1, e2, e3, e4, e5⟩ := hagree c
    obtain ⟨f0, f2, f3, f4, f5⟩ := Cert.PreFinite.finite_of_pre _ _ _ _ _ _ (hpre c)
    rw [e0, e1, e2, e3, e4, e5]
    exact (Gcn.outAggFirst_eq_outAggLast _ _ _ _ _ _ (fun e => Gcn.coef_isReal _ e)
      (Gcn.hidden_isReal _ _ _ _ _ _ (fun e => Gcn.coef_isReal _ e) f0 f2 f3) f4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
